-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096x4 : Shape := ⟨3, ![4096, 4096, 4]⟩
abbrev S128x64 : Shape := ⟨2, ![128, 64]⟩
abbrev S128x128 : Shape := ⟨2, ![128, 128]⟩
abbrev S128 : Shape := ⟨1, ![128]⟩
abbrev S4x8 : Shape := ⟨2, ![4, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096x4 : S_.BroadcastsInDim S4096x4096x4 (![] : Fin 0 → Fin S4096x4096x4.rank)
  reducesTo_S4096x4096x4_S_d0_1_2 : S4096x4096x4.ReducesTo [0, 1, 2] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S8 .f32) (main_arg8 : FVec F S8x1 .f32) (main_arg9 : FVec F S1 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x1 .f32 := Host.absf main_arg8
  let main_cst_14 : FVec F S_ .f32 := constant S_ .f32 0x7F800000#32
  let main_v40 : FVec F S8x1 .f32 := broadcastInDim S8x1 ![] bcast_S_S8x1 main_cst_14
  let main_v41 : IVec S8x1 1 := cmpf .olt main_v39 main_v40
  let main_c_15 : IVec S_ 1 := constantI S_ 1 1#1
  let main_v42 : IVec S_ 1 := (fun x v => Host.reduce IntOp.andi x v reducesTo_S8x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S4x8 .f32) (main_arg7 : FVec F S8 .f32) (main_arg8 : FVec F S8x1 .f32) (main_arg9 : FVec F S1 .f32) (main_arg10 : FVec F S128x128 .f32) (main_arg11 : FVec F S128 .f32) (main_arg12 : FVec F S128x128 .f32) (main_arg13 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x8 .f32 := Host.absf main_arg6
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x128 .f32) (main_arg1 : FVec F S4096x4096x4 .f32) (main_arg2 : FVec F S128x64 .f32) (main_arg3 : FVec F S128x64 .f32) (main_arg4 : FVec F S128x128 .f32) (main_arg5 : FVec F S128 .f32) (main_arg6 : FVec F S4x8 .f32) (main_arg7 : FVec F S8 .f32) (main_arg8 : FVec F S8x1 .f32) (main_arg9 : FVec F S1 .f32) (main_arg10 : FVec F S128x128 .f32) (main_arg11 : FVec F S128 .f32) (main_arg12 : FVec F S128x128 .f32) (main_arg13 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096x4 .f32 := Host.absf main_arg1
  let main_cst_0 : FVec F S_ .f32 := constant S_ .f32 0x7F800000#32
  let main_v5 : FVec F S4096x4096x4 .f32 := broadcastInDim S4096x4096x4 ![] bcast_S_S4096x4096x4 main_cst_0
  let main_v6 : IVec S4096x4096x4 1 := cmpf .olt main_v4 main_v5
  let main_c_1 : IVec S_ 1 := constantI S_ 1 1#1
  let main_v7 : IVec S_ 1 := (fun x v => Host.reduce IntOp.andi x v reducesTo_S4096x4096x4_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x128 : Shape := ⟨2, ![4096, 128]⟩
abbrev S4096x4096x4 : Shape := ⟨3, ![4096, 4096, 4]⟩
abbrev S128x64 : Shape := ⟨2, ![128, 64]⟩
abbrev S128x128 : Shape := ⟨2, ![128, 128]⟩
abbrev S128 : Shape := ⟨1, ![128]⟩
abbrev S4x8 : Shape := ⟨2, ![4, 8]⟩
abbrev S8 : Shape := ⟨1, ![8]⟩
abbrev S8x1 : Shape := ⟨2, ![8, 1]⟩
abbrev S1 : Shape := ⟨1, ![1]⟩
abbrev S4096x64 : Shape := ⟨2, ![4096, 64]⟩
abbrev S1x128 : Shape := ⟨2, ![1, 128]⟩
abbrev S16777216x4 : Shape := ⟨2, ![16777216, 4]⟩
abbrev S16777216x8 : Shape := ⟨2, ![16777216, 8]⟩
abbrev S1x8 : Shape := ⟨2, ![1, 8]⟩
abbrev S_ : Shape := ⟨0, ![]⟩
abbrev S16777216x1 : Shape := ⟨2, ![16777216, 1]⟩
abbrev S1x1 : Shape := ⟨2, ![1, 1]⟩
abbrev S4096x4096 : Shape := ⟨2, ![4096, 4096]⟩
abbrev S1024x128 : Shape := ⟨2, ![1024, 128]⟩
abbrev S1024x64 : Shape := ⟨2, ![1024, 64]⟩
abbrev S1024x1024 : Shape := ⟨2, ![1024, 1024]⟩
abbrev S1024x1 : Shape := ⟨2, ![1024, 1]⟩
abbrev S64x1024 : Shape := ⟨2, ![64, 1024]⟩
abbrev S1024 : Shape := ⟨1, ![1024]⟩

abbrev nBuf : Space → Nat
  | .hbm => 36
  | .vmem => 19
  | .smem => 0
  | _ => 0

abbrev bufTy : (tb : Table) → Fin (tcTables nBuf tb) → BufTy
  | .hbm, ⟨0, _⟩ => ⟨S4096x128, .f32⟩
  | .hbm, ⟨1, _⟩ => ⟨S4096x4096x4, .f32⟩
  | .hbm, ⟨2, _⟩ => ⟨S128x64, .f32⟩
  | .hbm, ⟨3, _⟩ => ⟨S128x64, .f32⟩
  | .hbm, ⟨4, _⟩ => ⟨S128x128, .f32⟩
  | .hbm, ⟨5, _⟩ => ⟨S128, .f32⟩
  | .hbm, ⟨6, _⟩ => ⟨S4x8, .f32⟩
  | .hbm, ⟨7, _⟩ => ⟨S8, .f32⟩
  | .hbm, ⟨8, _⟩ => ⟨S8x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S4096x64, .f32⟩
  | .hbm, ⟨15, _⟩ => ⟨S4096x64, .f32⟩
  | .hbm, ⟨16, _⟩ => ⟨S4096x128, .f32⟩
  | .hbm, ⟨17, _⟩ => ⟨S1x128, .f32⟩
  | .hbm, ⟨18, _⟩ => ⟨S4096x128, .f32⟩
  | .hbm, ⟨19, _⟩ => ⟨S4096x128, .f32⟩
  | .hbm, ⟨20, _⟩ => ⟨S16777216x4, .f32⟩
  | .hbm, ⟨21, _⟩ => ⟨S16777216x8, .f32⟩
  | .hbm, ⟨22, _⟩ => ⟨S1x8, .f32⟩
  | .hbm, ⟨23, _⟩ => ⟨S16777216x8, .f32⟩
  | .hbm, ⟨24, _⟩ => ⟨S16777216x8, .f32⟩
  | .hbm, ⟨25, _⟩ => ⟨S_, .f32⟩
  | .hbm, ⟨26, _⟩ => ⟨S16777216x8, .f32⟩
  | .hbm, ⟨27, _⟩ => ⟨S16777216x8, .f32⟩
  | .hbm, ⟨28, _⟩ => ⟨S16777216x1, .f32⟩
  | .hbm, ⟨29, _⟩ => ⟨S1x1, .f32⟩
  | .hbm, ⟨30, _⟩ => ⟨S16777216x1, .f32⟩
  | .hbm, ⟨31, _⟩ => ⟨S16777216x1, .f32⟩
  | .hbm, ⟨32, _⟩ => ⟨S4096x4096, .f32⟩
  | .hbm, ⟨33, _⟩ => ⟨S1x128, .f32⟩
  | .hbm, ⟨34, _⟩ => ⟨S1x128, .f32⟩
  | .hbm, ⟨35, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_cst : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  shapeCasts_S4096x4096x4_S16777216x4 : S4096x4096x4.ShapeCasts S16777216x4
  bcast_S8_S1x8_1 : S8.BroadcastsInDim S1x8 (![1] : Fin 1 → Fin S1x8.rank)
  bcast_S1x8_S16777216x8_0_1 : S1x8.BroadcastsInDim S16777216x8 (![0, 1] : Fin 2 → Fin S16777216x8.rank)
  bcast_S_S16777216x8 : S_.BroadcastsInDim S16777216x8 (![] : Fin 0 → Fin S16777216x8.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  shapeCasts_S16777216x1_S4096x4096 : S16777216x1.ShapeCasts S4096x4096
  shapeCasts_S128_S1x128 : S128.ShapeCasts S1x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S4096x128_S128x64_S4096x64_1_0_0_1_n_n_wf : DotDims.WF S4096x128 S128x64 S4096x64 [1] [0] [0] [1] [] []
  dot_S4096x128_S128x128_S4096x128_1_0_0_1_n_n_wf : DotDims.WF S4096x128 S128x128 S4096x128 [1] [0] [0] [1] [] []
  dot_S16777216x4_S4x8_S16777216x8_1_0_0_1_n_n_wf : DotDims.WF S16777216x4 S4x8 S16777216x8 [1] [0] [0] [1] [] []
  dot_S16777216x8_S8x1_S16777216x1_1_0_0_1_n_n_wf : DotDims.WF S16777216x8 S8x1 S16777216x1 [1] [0] [0] [1] [] []
  dot_S1024x64_S64x1024_S1024x1024_1_0_0_1_n_n_wf : DotDims.WF S1024x64 S64x1024 S1024x1024 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .f32 = 32 ∨ (Rect.block (s := S4096x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S4096x128.size a
  hwx0_9 : ∀ i : grid0.Coords, EltTy.bits .f32 = 32 ∨ (Rect.block (s := S4096x128) S1024x128.size (cc0_transform_9 i) (hinb0_9 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S16777216x4_S4x8_S16777216x8_1_0_0_1_n_n : DotDims S16777216x4 S4x8 S16777216x8 where
  lhsContracting := [1]
  rhsContracting := [0]
  lhsNonContracting := [0]
  rhsNonContracting := [1]
  lhsBatch := []
  rhsBatch := []
  wf := dot_S16777216x4_S4x8_S16777216x8_1_0_0_1_n_n_wf
def dot_S16777216x8_S8x1_S16777216x1_1_0_0_1_n_n : DotDims S16777216x8 S8x1 S16777216x1 where
  lhsContracting := [1]
  rhsContracting := [0]
  lhsNonContracting := [0]
  rhsNonContracting := [1]
  lhsBatch := []
  rhsBatch := []
  wf := dot_S16777216x8_S8x1_S16777216x1_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096x4 : Shape := ⟨3, ![4096, 4096, 4]⟩
abbrev S128x64 : Shape := ⟨2, ![128, 64]⟩
abbrev S128x128 : Shape := ⟨2, ![128, 128]⟩
abbrev S128 : Shape := ⟨1, ![128]⟩
abbrev S4x8 : Shape := ⟨2, ![4, 8]⟩
abbrev S8 : Shape := ⟨1, ![8]⟩
abbrev S8x1 : Shape := ⟨2, ![8, 1]⟩
abbrev S1 : Shape := ⟨1, ![1]⟩
abbrev S4096x64 : Shape := ⟨2, ![4096, 64]⟩
abbrev S4096x4096x8 : Shape := ⟨3, ![4096, 4096, 8]⟩
abbrev S1x1x8 : Shape := ⟨3, ![1, 1, 8]⟩
abbrev S_ : Shape := ⟨0, ![]⟩
abbrev S4096x4096x1 : Shape := ⟨3, ![4096, 4096, 1]⟩
abbrev S1x1x1 : Shape := ⟨3, ![1, 1, 1]⟩
abbrev S4096x4096 : Shape := ⟨2, ![4096, 4096]⟩
abbrev S64x4096 : Shape := ⟨2, ![64, 4096]⟩
abbrev S4096 : Shape := ⟨1, ![4096]⟩
abbrev S4096x1 : Shape := ⟨2, ![4096, 1]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096x4, .f32⟩
  | .hbm, ⟨2, _⟩ => ⟨S128x64, .f32⟩
  | .hbm, ⟨3, _⟩ => ⟨S128x64, .f32⟩
  | .hbm, ⟨4, _⟩ => ⟨S128x128, .f32⟩
  | .hbm, ⟨5, _⟩ => ⟨S128, .f32⟩
  | .hbm, ⟨6, _⟩ => ⟨S4x8, .f32⟩
  | .hbm, ⟨7, _⟩ => ⟨S8, .f32⟩
  | .hbm, ⟨8, _⟩ => ⟨S8x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S4096x64, .f32⟩
  | .hbm, ⟨15, _⟩ => ⟨S4096x64, .f32⟩
  | .hbm, ⟨16, _⟩ => ⟨S4096x4096x8, .f32⟩
  | .hbm, ⟨17, _⟩ => ⟨S1x1x8, .f32⟩
  | .hbm, ⟨18, _⟩ => ⟨S4096x4096x8, .f32⟩
  | .hbm, ⟨19, _⟩ => ⟨S4096x4096x8, .f32⟩
  | .hbm, ⟨20, _⟩ => ⟨S_, .f32⟩
  | .hbm, ⟨21, _⟩ => ⟨S4096x4096x8, .f32⟩
  | .hbm, ⟨22, _⟩ => ⟨S4096x4096x8, .f32⟩
  | .hbm, ⟨23, _⟩ => ⟨S4096x4096x1, .f32⟩
  | .hbm, ⟨24, _⟩ => ⟨S1x1x1, .f32⟩
  | .hbm, ⟨25, _⟩ => ⟨S4096x4096x1, .f32⟩
  | .hbm, ⟨26, _⟩ => ⟨S4096x4096x1, .f32⟩
  | .hbm, ⟨27, _⟩ => ⟨S4096x4096, .f32⟩
  | .hbm, ⟨28, _⟩ => ⟨S64x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x4096, .f32⟩
  | .hbm, ⟨48, _⟩ => ⟨S4096x4096, .f32⟩
  | .hbm, ⟨49, _⟩ => ⟨S4096x128, .f32⟩
  | .hbm, ⟨50, _⟩ => ⟨S1x128, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S1x128, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S1x128, .f32⟩
  | .hbm, ⟨64, _⟩ => ⟨S4096x128, .f32⟩
  | .hbm, ⟨65, _⟩ => ⟨S4096x128, .f32⟩
  | .hbm, ⟨66, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S4096x4096x8_0_1_2 : S1x1x8.BroadcastsInDim S4096x4096x8 (![0, 1, 2] : Fin 3 → Fin S4096x4096x8.rank)
  bcast_S_S4096x4096x8 : S_.BroadcastsInDim S4096x4096x8 (![] : Fin 0 → Fin S4096x4096x8.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  shapeCasts_S4096x4096x1_S4096x4096 : S4096x4096x1.ShapeCasts S4096x4096
  transposes_S4096x64_S64x4096_1_0 : S4096x64.Transposes [1, 0] S64x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x64_S4096x64_1_0_0_1_n_n_wf : DotDims.WF S4096x128 S128x64 S4096x64 [1] [0] [0] [1] [] []
  dot_S4096x4096x4_S4x8_S4096x4096x8_2_0_01_1_n_n_wf : DotDims.WF S4096x4096x4 S4x8 S4096x4096x8 [2] [0] [0, 1] [1] [] []
  dot_S4096x4096x8_S8x1_S4096x4096x1_2_0_01_1_n_n_wf : DotDims.WF S4096x4096x8 S8x1 S4096x4096x1 [2] [0] [0, 1] [1] [] []
  dot_S4096x64_S64x4096_S4096x4096_1_0_0_1_n_n_wf : DotDims.WF S4096x64 S64x4096 S4096x4096 [1] [0] [0] [1] [] []
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096x4_S4x8_S4096x4096x8_2_0_01_1_n_n : DotDims S4096x4096x4 S4x8 S4096x4096x8 where
  lhsContracting := [2]
  rhsContracting := [0]
  lhsNonContracting := [0, 1]
  rhsNonContracting := [1]
  lhsBatch := []
  rhsBatch := []
  wf := dot_S4096x4096x4_S4x8_S4096x4096x8_2_0_01_1_n_n_wf
def dot_S4096x4096x8_S8x1_S4096x4096x1_2_0_01_1_n_n : DotDims S4096x4096x8 S8x1 S4096x4096x1 where
  lhsContracting := [2]
  rhsContracting := [0]
  lhsNonContracting := [0, 1]
  rhsNonContracting := [1]
  lhsBatch := []
  rhsBatch := []
  wf := dot_S4096x4096x8_S8x1_S4096x4096x1_2_0_01_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Spec.lean ====
/-
  The specification: single-head attention with an additive bias, a residual and a two-layer perceptron,
  as one function of the operand arrays, index by index, on the extended reals.

  For a row `R` the score against column `j` is `(∑ e, K R e * Q j e) * (1/8) + B R j` (the scale `1/8` is the
  float `0.125`, exactly `1/√64`).  The row's softmax weights are `exp (score j - M) / L` with `M` the row's
  largest score and `L = ∑ exp (score j - M)`; the attended vector is `∑ j, weight j * V j d`; the row's result
  is `u + (relu (u W₁ + b₁) W₂ + b₂)` with `u = X R + attended`.
-/
import Idealize.ShloMosaic.PureOps.Ideal
import Idealize.ShloMosaic.Lib.ValueIdx

noncomputable section

namespace Cert.Attn

open Idealize.ShloMosaic Idealize.ShloMosaic.ValueIdx

/-- Row `R`'s score against column `j`: the scaled inner product of the row's key with the column's query, plus the bias. -/
def score (K Q : (⟨2, ![4096, 64]⟩ : Shape).Idx → EReal) (B : (⟨2, ![4096, 4096]⟩ : Shape).Idx → EReal) (R j : Fin 4096) : EReal :=
  (∑ e : Fin 64, K (ix2 R e) * Q (ix2 j e)) * Ideal.ofBits .f32 0x3E000000#32 + B (ix2 R j)

/-- Row `R`'s largest score, taken from `⊥`. -/
def rowMax (K Q : (⟨2, ![4096, 64]⟩ : Shape).Idx → EReal) (B : (⟨2, ![4096, 4096]⟩ : Shape).Idx → EReal) (R : Fin 4096) : EReal :=
  max ⊥ (Finset.univ.fold max ⊥ (score K Q B R))

/-- The softmax-weighted mean of the value rows, column `d`, for row `R`. -/
def attended (K Q : (⟨2, ![4096, 64]⟩ : Shape).Idx → EReal) (B : (⟨2, ![4096, 4096]⟩ : Shape).Idx → EReal)
    (Vv : (⟨2, ![4096, 128]⟩ : Shape).Idx → EReal) (R : Fin 4096) (d : Fin 128) : EReal :=
  ∑ j : Fin 4096, Ideal.div (Ideal.exp (score K Q B R j - rowMax K Q B R))
      (0 + ∑ j' : Fin 4096, Ideal.exp (score K Q B R j' - rowMax K Q B R)) * Vv (ix2 j d)

/-- One row through the residual perceptron: `u + (relu (u W₁ + b₁) W₂ + b₂)`, column `d`. -/
def mlpRow (W1 : (⟨2, ![128, 128]⟩ : Shape).Idx → EReal) (b1 : Fin 128 → EReal)
    (W2 : (⟨2, ![128, 128]⟩ : Shape).Idx → EReal) (b2 : Fin 128 → EReal) (u : Fin 128 → EReal) (d : Fin 128) : EReal :=
  u d + ((∑ h : Fin 128, max ((∑ e : Fin 128, u e * W1 (ix2 e h)) + b1 h) 0 * W2 (ix2 h d)) + b2 d)

/-- The whole result array. -/
def attnSpec (X : (⟨2, ![4096, 128]⟩ : Shape).Idx → EReal) (K Q : (⟨2, ![4096, 64]⟩ : Shape).Idx → EReal)
    (B : (⟨2, ![4096, 4096]⟩ : Shape).Idx → EReal) (Vv : (⟨2, ![4096, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal) : (⟨2, ![4096, 128]⟩ : Shape).Idx → EReal :=
  fun i => mlpRow W1 b1 W2 b2 (fun e => X (ix2 (i 0) e) + attended K Q B Vv (i 0) e) (i 1)

/-- The kernel's scale literal is the rational `1/8`. -/
theorem ofBits_eighth : Ideal.ofBits .f32 0x3E000000#32 = ((1 / 8 : ℝ) : EReal) := by
  simp [Ideal.ofBits, Ideal.ieee, -EReal.coe_mul]; norm_num

/-- The literal `64.0` is the real `64`. -/
theorem ofBits_sixtyfour : Ideal.ofBits .f32 0x42800000#32 = ((64 : ℝ) : EReal) := by
  simp [Ideal.ofBits, Ideal.ieee, -EReal.coe_mul]; norm_num

/-- The reference's divisor: the square root of the literal `64.0` is the real `8`. -/
theorem sqrt_sixtyfour : Ideal.sqrt (Ideal.ofBits .f32 0x42800000#32) = ((8 : ℝ) : EReal) := by
  rw [ofBits_sixtyfour, Ideal.sqrt_coe, if_neg (by norm_num)]
  have h : Real.sqrt 64 = 8 := by
    rw [show (64 : ℝ) = 8 ^ 2 by norm_num]; exact Real.sqrt_sq (by norm_num)
  rw [h]

/-- The reduction's starting value `-∞`. -/
theorem ofBits_neg_inf : Ideal.ofBits .f32 0xFF800000#32 = (⊥ : EReal) := by
  simp [Ideal.ofBits, Ideal.ieee]

end Cert.Attn

end
-- ==== Proof.OnlineSoftmax.lean ====
/-
  Online softmax on one row, over the reals, read on the extended reals.

  A row's scores are real numbers `s j` (j a column) and its values real vectors `v j`.  A kernel that
  streams the columns block by block keeps three numbers per row: the running maximum `m`, the sum
  `l = ∑ exp (s j - m)` over the columns seen so far, and per output column `acc d = ∑ exp (s j - m) * v j d`.
  When a new block arrives the maximum may grow to `m'`; the old sums are rescaled by `exp (m - m')`,
  because `exp (m - m') * exp (s j - m) = exp (s j - m')`, and the block's own terms are added.
  After the last block `acc d / l` is the softmax-weighted mean `∑ (exp (s j - M) / L) * v j d`, since `L > 0`.
  The operations are the extended reals' (`Ideal.exp`, `Ideal.div`, `max`, `+`, `*`); on real arguments they are the reals'.
-/
import Idealize.ShloMosaic.PureOps.Ideal

noncomputable section

namespace Cert.OnlineSoftmax

open Idealize.ShloMosaic

variable {J D ι : Type} [Fintype J] [DecidableEq J] [Fintype D] [Fintype ι]

/-- `(m, l, acc)` summarise the columns `T` of a row with real scores `s` and real values `v`: `m` is the largest
    score on `T` (an upper bound that is attained), `l` the sum of `exp (s j - m)` over `T`, and `acc d` the sum of
    `exp (s j - m) * v j d`. -/
def Summ (s : J → ℝ) (v : J → D → ℝ) (T : Finset J) (m l : EReal) (acc : D → EReal) : Prop :=
  ∃ μ : ℝ, m = (μ : EReal) ∧ (∀ j ∈ T, s j ≤ μ) ∧ (∃ j ∈ T, s j = μ)
    ∧ l = ((∑ j ∈ T, Real.exp (s j - μ) : ℝ) : EReal)
    ∧ ∀ d, acc d = ((∑ j ∈ T, Real.exp (s j - μ) * v j d : ℝ) : EReal)

/-- The inclusion of the reals in the extended reals commutes with finite sums. -/
theorem coe_sum {α : Type} (t : Finset α) (f : α → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The inclusion of the reals in the extended reals is monotone, so it commutes with the binary maximum. -/
theorem coe_max (a b : ℝ) : ((max a b : ℝ) : EReal) = max (a : EReal) (b : EReal) :=
  EReal.coe_strictMono.monotone.map_max

/-- The maximum of finitely many reals (at least one), folded on the extended reals from `⊥`, is a real: an upper
    bound of the family that is attained. -/
theorem fold_max_coe [Nonempty ι] (f : ι → ℝ) :
    ∃ ν : ℝ, Finset.univ.fold max ⊥ (fun i => ((f i : ℝ) : EReal)) = (ν : EReal) ∧ (∀ i, f i ≤ ν) ∧ ∃ i, f i = ν := by
  obtain ⟨i0, -, h0⟩ := Finset.exists_max_image Finset.univ f Finset.univ_nonempty
  refine ⟨f i0, le_antisymm ?_ ?_, fun i => h0 i (Finset.mem_univ i), i0, rfl⟩
  · exact (Finset.fold_max_le _).2 ⟨bot_le, fun i _ => EReal.coe_le_coe_iff.2 (h0 i (Finset.mem_univ i))⟩
  · exact (Finset.le_fold_max _).2 (Or.inr ⟨i0, Finset.mem_univ i0, le_rfl⟩)

/-- The first block, from the reset state `(⊥, 0, 0)`: the rescaling factor is `exp ⊥ = 0`. -/
theorem init [Nonempty ι] (s : J → ℝ) (v : J → D → ℝ) (emb : ι → J) (hinj : Function.Injective emb)
    (S : ι → EReal) (hS : ∀ i, S i = (s (emb i) : EReal)) (Vv : ι → D → EReal) (hV : ∀ i d, Vv i d = (v (emb i) d : EReal)) :
    Summ s v (Finset.univ.image emb) (max ⊥ (Finset.univ.fold max ⊥ S))
      (Ideal.exp (⊥ - max ⊥ (Finset.univ.fold max ⊥ S)) * 0 + ∑ i, Ideal.exp (S i - max ⊥ (Finset.univ.fold max ⊥ S)))
      (fun d => Ideal.exp (⊥ - max ⊥ (Finset.univ.fold max ⊥ S)) * 0
        + ∑ i, Ideal.exp (S i - max ⊥ (Finset.univ.fold max ⊥ S)) * Vv i d) := by
  have hS' : S = fun i => ((s (emb i) : ℝ) : EReal) := funext hS
  have hV' : Vv = fun i d => ((v (emb i) d : ℝ) : EReal) := funext fun i => funext (hV i)
  subst hS' hV'
  obtain ⟨ν, hfold, hle, i0, hi0⟩ := fold_max_coe (fun i => s (emb i))
  rw [hfold, max_bot_left]
  refine ⟨ν, rfl, ?_, ?_, ?_, ?_⟩
  · intro j hj
    obtain ⟨i, -, rfl⟩ := Finset.mem_image.1 hj
    exact hle i
  · exact ⟨emb i0, Finset.mem_image_of_mem emb (Finset.mem_univ i0), hi0⟩
  · rw [mul_zero, zero_add, Finset.sum_image hinj.injOn, coe_sum]
    refine Finset.sum_congr rfl fun i _ => ?_
    rw [← EReal.coe_sub, Ideal.exp_coe]
  · intro d
    show _ * 0 + _ = _
    rw [mul_zero, zero_add, Finset.sum_image hinj.injOn, coe_sum]
    refine Finset.sum_congr rfl fun i _ => ?_
    rw [← EReal.coe_sub, Ideal.exp_coe, ← EReal.coe_mul]

/-- A further block, disjoint from the columns already summarised. -/
theorem step [Nonempty ι] (s : J → ℝ) (v : J → D → ℝ) (T : Finset J) (m l : EReal) (acc : D → EReal) (h : Summ s v T m l acc)
    (emb : ι → J) (hinj : Function.Injective emb) (hdisj : ∀ i, emb i ∉ T)
    (S : ι → EReal) (hS : ∀ i, S i = (s (emb i) : EReal)) (Vv : ι → D → EReal) (hV : ∀ i d, Vv i d = (v (emb i) d : EReal)) :
    Summ s v (T ∪ Finset.univ.image emb) (max m (Finset.univ.fold max ⊥ S))
      (Ideal.exp (m - max m (Finset.univ.fold max ⊥ S)) * l + ∑ i, Ideal.exp (S i - max m (Finset.univ.fold max ⊥ S)))
      (fun d => Ideal.exp (m - max m (Finset.univ.fold max ⊥ S)) * acc d
        + ∑ i, Ideal.exp (S i - max m (Finset.univ.fold max ⊥ S)) * Vv i d) := by
  obtain ⟨μ, rfl, hb, ⟨j0, hj0T, hj0⟩, rfl, hacc⟩ := h
  have hS' : S = fun i => ((s (emb i) : ℝ) : EReal) := funext hS
  have hV' : Vv = fun i d => ((v (emb i) d : ℝ) : EReal) := funext fun i => funext (hV i)
  subst hS' hV'
  obtain ⟨ν, hfold, hle, i0, hi0⟩ := fold_max_coe (fun i => s (emb i))
  rw [hfold, ← coe_max]
  have hμ : μ ≤ max μ ν := le_max_left _ _
  have hν : ν ≤ max μ ν := le_max_right _ _
  have hd : Disjoint T (Finset.univ.image emb) := by
    rw [Finset.disjoint_left]
    intro j hjT hj
    obtain ⟨i, -, rfl⟩ := Finset.mem_image.1 hj
    exact hdisj i hjT
  refine ⟨max μ ν, rfl, ?_, ?_, ?_, ?_⟩
  · intro j hj
    rcases Finset.mem_union.1 hj with hjT | hj
    · exact (hb j hjT).trans hμ
    · obtain ⟨i, -, rfl⟩ := Finset.mem_image.1 hj
      exact (hle i).trans hν
  · rcases le_total μ ν with hmn | hmn
    · refine ⟨emb i0, Finset.mem_union_right _ (Finset.mem_image_of_mem emb (Finset.mem_univ i0)), ?_⟩
      rw [hi0, max_eq_right hmn]
    · refine ⟨j0, Finset.mem_union_left _ hj0T, ?_⟩
      rw [hj0, max_eq_left hmn]
  · -- exp (μ - μ') * exp (s j - μ) = exp (s j - μ') on the old columns; the new ones carry their own terms
    rw [Finset.sum_union hd, Finset.sum_image hinj.injOn, EReal.coe_add, coe_sum Finset.univ, ← EReal.coe_sub,
      Ideal.exp_coe, ← EReal.coe_mul]
    -- the new columns' terms agree as they stand; the old ones after the rescaling
    congr 2
    rw [Finset.mul_sum]
    refine Finset.sum_congr rfl fun j _ => ?_
    rw [← Real.exp_add]
    congr 1
    ring
  · intro d
    show _ * acc d + _ = _
    rw [hacc d, Finset.sum_union hd, Finset.sum_image hinj.injOn, EReal.coe_add, coe_sum Finset.univ, ← EReal.coe_sub,
      Ideal.exp_coe, ← EReal.coe_mul]
    have hnew : (∑ i, Ideal.exp (((s (emb i) : ℝ) : EReal) - ((max μ ν : ℝ) : EReal)) * ((v (emb i) d : ℝ) : EReal))
        = ∑ i, ((Real.exp (s (emb i) - max μ ν) * v (emb i) d : ℝ) : EReal) := by
      refine Finset.sum_congr rfl fun i _ => ?_
      rw [← EReal.coe_sub, Ideal.exp_coe, ← EReal.coe_mul]
    rw [hnew]
    congr 2
    rw [Finset.mul_sum]
    refine Finset.sum_congr rfl fun j _ => ?_
    rw [← mul_assoc, ← Real.exp_add]
    congr 2
    ring

/-- After every column: the accumulated vector over the accumulated sum is the softmax-weighted mean, in the form a
    whole-row softmax computes it (maximum from `⊥`, the sum from `0`, each weight divided before it multiplies). -/
theorem final (s : J → ℝ) (v : J → D → ℝ) (m l : EReal) (acc : D → EReal) (h : Summ s v Finset.univ m l acc)
    (S : J → EReal) (hS : ∀ j, S j = (s j : EReal)) (Vv : J → D → EReal) (hV : ∀ j d, Vv j d = (v j d : EReal)) (d : D) :
    Ideal.div (acc d) l
      = ∑ j, Ideal.div (Ideal.exp (S j - max ⊥ (Finset.univ.fold max ⊥ S)))
            (0 + ∑ j', Ideal.exp (S j' - max ⊥ (Finset.univ.fold max ⊥ S))) * Vv j d := by
  obtain ⟨μ, rfl, hb, ⟨j0, -, hj0⟩, rfl, hacc⟩ := h
  have hS' : S = fun j => ((s j : ℝ) : EReal) := funext hS
  have hV' : Vv = fun j d => ((v j d : ℝ) : EReal) := funext fun j => funext (hV j)
  subst hS' hV'
  haveI : Nonempty J := ⟨j0⟩
  obtain ⟨ν, hfold, hle, j1, hj1⟩ := fold_max_coe (ι := J) s
  -- an attained upper bound is unique
  have hνμ : ν = μ := by
    apply le_antisymm
    · rw [← hj1]; exact hb j1 (Finset.mem_univ j1)
    · rw [← hj0]; exact hle j0
  subst hνμ
  rw [hfold, max_bot_left, hacc d, zero_add]
  have hL : 0 < ∑ j, Real.exp (s j - ν) := Finset.sum_pos (fun j _ => Real.exp_pos _) Finset.univ_nonempty
  have hden : (∑ j', Ideal.exp (((s j' : ℝ) : EReal) - (ν : EReal))) = ((∑ j, Real.exp (s j - ν) : ℝ) : EReal) := by
    rw [coe_sum]
    refine Finset.sum_congr rfl fun j _ => ?_
    rw [← EReal.coe_sub, Ideal.exp_coe]
  have hR : ∀ j, Ideal.div (Ideal.exp (((s j : ℝ) : EReal) - (ν : EReal))) ((∑ j, Real.exp (s j - ν) : ℝ) : EReal) * ((v j d : ℝ) : EReal)
      = ((Real.exp (s j - ν) * (1 / ∑ j, Real.exp (s j - ν)) * v j d : ℝ) : EReal) := by
    intro j
    rw [Ideal.div_coe hL.ne', ← EReal.coe_sub, Ideal.exp_coe, ← EReal.coe_mul, ← EReal.coe_mul]
  rw [hden, Finset.sum_congr rfl (fun j _ => hR j), ← coe_sum, Ideal.div_coe hL.ne', ← EReal.coe_mul]
  congr 1
  rw [Finset.sum_mul]
  refine Finset.sum_congr rfl fun j _ => ?_
  ring

end Cert.OnlineSoftmax

end
-- ==== Proof.Payloads.lean ====
/-
  The kernel body's arithmetic, read at one index on the extended reals.

  One grid point handles a block of 1024 rows against a block of 1024 columns.  For row `r` of the block:
  the scores are `(∑ e, k r e * q j e) * (1/8) + bias r j`; the new maximum is the larger of the carried one and
  the block's; the carried sums are rescaled by `exp (m_old - m_new)`; the block adds `∑ j, exp (score j - m_new)`
  to the denominator and `∑ j, exp (score j - m_new) * v j d` to the numerator.  The last point of a row block
  divides, adds the residual and applies the two-layer perceptron.
-/
import proofs.«407300_j9534827397806_3_alg».proof.Proof.Gen.KernelIdeal.Skeleton
import proofs.«407300_j9534827397806_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## Layout operations of a column, read at an index -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane reductions of a matrix, read at a row -/

/-- The sum along the rows of an `[a, b]` matrix reads, at row `r`, the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src ?_
  funext d
  match d with
  | ⟨0, _⟩ => rfl
  | ⟨1, _⟩ => rfl

/-- The maximum along the rows of an `[a, b]` matrix reads, at row `r`, the largest of the row's entries, taken from `⊥`. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ src 0xFF800000#32 h hφ hacc (ix1 r)
      = Finset.univ.fold max ⊥ fun k : Fin b => src (ix2 r k) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [Cert.Attn.ofBits_neg_inf]
  refine congrArg (Finset.univ.fold max ⊥) (funext fun k => congrArg src ?_)
  funext d
  match d with
  | ⟨0, _⟩ => rfl
  | ⟨1, _⟩ => rfl

/-! ## The block products, read at an index

Each product contracts the left operand's columns against the right operand's rows into a zero accumulator, so its
entry `(r, c)` is `∑ k, A (r, k) * B (k, c)`.  The contraction index is a one-axis index; the four coordinate facts
of each product say which coordinate of an operand's index is the result's and which the contraction's. -/

/-! ### The scores' product: `[1024, 64]` by `[64, 1024]` -/

theorem lhs_scores_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem lhs_scores_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_scores_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_scores_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The scores' product at `(r, c)`. -/
theorem matmul_scores_apply (A : FVec Ideal S1024x64 .f32) (B : FVec Ideal S64x1024 .f32) (r c : Fin 1024) :
    matmul dot_S1024x64_S64x1024_S1024x1024_1_0_0_1_n_n none A B (constant (F := Ideal) S1024x1024 .f32 0x00000000#32) (ix2 r c)
      = ∑ k : Fin 64, A (ix2 r k) * B (ix2 k c) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k :=
    funext fun a => Fin.ext (by
      match a with
      | ⟨0, _⟩ => exact lhs_scores_0 _ _
      | ⟨1, _⟩ => exact (lhs_scores_1 _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c :=
    funext fun a => Fin.ext (by
      match a with
      | ⟨0, _⟩ => exact (rhs_scores_0 _ _).trans hk
      | ⟨1, _⟩ => exact rhs_scores_1 _ _)
  rw [el, er]

/-! ### The weighted value rows' product: `[1024, 1024]` by `[1024, 128]` -/

theorem lhs_values_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhs_values_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_values_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_values_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The weighted value rows' product at `(r, c)`. -/
theorem matmul_values_apply (A : FVec Ideal S1024x1024 .f32) (B : FVec Ideal S1024x128 .f32) (r : Fin 1024) (c : Fin 128) :
    matmul dot_S1024x1024_S1024x128_S1024x128_1_0_0_1_n_n none A B (constant (F := Ideal) S1024x128 .f32 0x00000000#32) (ix2 r c)
      = ∑ k : Fin 1024, A (ix2 r k) * B (ix2 k c) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r c) ((contrEquiv1 dot_S1024x1024_S1024x128_S1024x128_1_0_0_1_n_n 1024 rfl rfl).symm k) = ix2 r k :=
    funext fun a => Fin.ext (by
      match a with
      | ⟨0, _⟩ => exact lhs_values_0 _ _
      | ⟨1, _⟩ => exact (lhs_values_1 _ _).trans hk)
  have er : dot_S1024x1024_S1024x128_S1024x128_1_0_0_1_n_n.rhsIdx (ix2 r c) ((contrEquiv1 dot_S1024x1024_S1024x128_S1024x128_1_0_0_1_n_n 1024 rfl rfl).symm k) = ix2 k c :=
    funext fun a => Fin.ext (by
      match a with
      | ⟨0, _⟩ => exact (rhs_values_0 _ _).trans hk
      | ⟨1, _⟩ => exact rhs_values_1 _ _)
  rw [el, er]

/-! ### The perceptron's two products: `[1024, 128]` by `[128, 128]` -/

theorem lhs_layer_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs_layer_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_layer_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_layer_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- A perceptron layer's product at `(r, c)`. -/
theorem matmul_layer_apply (A : FVec Ideal S1024x128 .f32) (B : FVec Ideal S128x128 .f32) (r : Fin 1024) (c : Fin 128) :
    matmul dot_S1024x128_S128x128_S1024x128_1_0_0_1_n_n none A B (constant (F := Ideal) S1024x128 .f32 0x00000000#32) (ix2 r c)
      = ∑ k : Fin 128, A (ix2 r k) * B (ix2 k c) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r c) ((contrEquiv1 dot_S1024x128_S128x128_S1024x128_1_0_0_1_n_n 128 rfl rfl).symm k) = ix2 r k :=
    funext fun a => Fin.ext (by
      match a with
      | ⟨0, _⟩ => exact lhs_layer_0 _ _
      | ⟨1, _⟩ => exact (lhs_layer_1 _ _).trans hk)
  have er : dot_S1024x128_S128x128_S1024x128_1_0_0_1_n_n.rhsIdx (ix2 r c) ((contrEquiv1 dot_S1024x128_S128x128_S1024x128_1_0_0_1_n_n 128 rfl rfl).symm k) = ix2 k c :=
    funext fun a => Fin.ext (by
      match a with
      | ⟨0, _⟩ => exact (rhs_layer_0 _ _).trans hk
      | ⟨1, _⟩ => exact rhs_layer_1 _ _)
  rw [el, er]

/-! ## The kernel's layout operations and reductions at its own shapes -/

/-- The queries' block transposed reads, at `(e, j)`, the block at `(j, e)`. -/
theorem transpose_q_apply (x : FVec Ideal S1024x64 .f32) (e : Fin 64) (j : Fin 1024) :
    transpose S64x1024 [1, 0] x transposes_S1024x64_p1_0_S64x1024 (ix2 e j) = x (ix2 j e) :=
  transpose_ix2_apply x transposes_S1024x64_p1_0_S64x1024 e j

/-- A per-row vector cast to a column reads, at `(r, 0)`, the vector at `r`. -/
theorem column_apply (v : FVec Ideal S1024 .f32) (r : Fin 1024) :
    shapeCast S1024x1 v shapeCasts_S1024_S1024x1 (ix2 r (0 : Fin 1)) = v (ix1 r) :=
  shapeCast_a_a1_apply v shapeCasts_S1024_S1024x1 r 0

/-- A column broadcast over the block's 1024 columns reads the column's entry of the row. -/
theorem bcast_col_1024_apply (v : FVec Ideal S1024x1 .f32) (r j : Fin 1024) :
    broadcastTo S1024x1024 v broadcasts_S1024x1_S1024x1024 (ix2 r j) = v (ix2 r (0 : Fin 1)) :=
  broadcastTo_a1_ab_apply v broadcasts_S1024x1_S1024x1024 r j

/-- A column broadcast over the 128 value columns reads the column's entry of the row. -/
theorem bcast_col_128_apply (v : FVec Ideal S1024x1 .f32) (r : Fin 1024) (d : Fin 128) :
    broadcastTo S1024x128 v broadcasts_S1024x1_S1024x128 (ix2 r d) = v (ix2 r (0 : Fin 1)) :=
  broadcastTo_a1_ab_apply v broadcasts_S1024x1_S1024x128 r d

/-- A row broadcast over the block's 1024 rows reads the row's entry of the column. -/
theorem bcast_row_128_apply (v : FVec Ideal S1x128 .f32) (r : Fin 1024) (d : Fin 128) :
    broadcastTo S1024x128 v broadcasts_S1x128_S1024x128 (ix2 r d) = v (ix2 (0 : Fin 1) d) :=
  broadcastTo_1b_ab_apply v broadcasts_S1x128_S1024x128 r d

/-- The block's row maxima, taken from `-∞`. -/
theorem blockMax_apply (src : FVec Ideal S1024x1024 .f32) (r : Fin 1024) :
    multiReduction (F := Ideal) .maximumf [1] S1024 src 0xFF800000#32 reduces_S1024x1024_S1024 (.inl rfl) rfl (ix1 r)
      = Finset.univ.fold max ⊥ fun k : Fin 1024 => src (ix2 r k) :=
  rowMax_apply src reduces_S1024x1024_S1024 (.inl rfl) rfl r

/-- The block's row sums. -/
theorem blockSum_apply (src : FVec Ideal S1024x1024 .f32) (r : Fin 1024) :
    multiReduction (F := Ideal) .add [1] S1024 src 0x00000000#32 reduces_S1024x1024_S1024 (.inl rfl) rfl (ix1 r)
      = ∑ k : Fin 1024, src (ix2 r k) :=
  rowSum_apply src reduces_S1024x1024_S1024 (.inl rfl) rfl r

/-! ## The payloads -/

/-- The block's scores. -/
theorem pay7_apply (x1 x2 : Vec Ideal S1024x64 .f32) (x4 : Vec Ideal S1024x1024 .f32) (r j : Fin 1024) :
    k0_pay7 (F := Ideal) x1 x2 x4 (ix2 r j)
      = (∑ e : Fin 64, x1 (ix2 r e) * x2 (ix2 j e)) * Ideal.ofBits .f32 0x3E000000#32 + x4 (ix2 r j) := by
  unfold k0_pay7
  simp only [shapeCast_self, addf_apply, mulf_apply, broadcast_apply]
  rw [matmul_scores_apply]
  simp only [transpose_q_apply x2, Ideal.ofBits_def]

/-- The new running maximum of row `r`. -/
theorem pay8_apply (x1 x2 : Vec Ideal S1024x64 .f32) (x4 : Vec Ideal S1024x1024 .f32) (ms : Vec Ideal S1024x1 .f32) (r : Fin 1024) :
    k0_pay8 (F := Ideal) x1 x2 x4 ms (ix2 r (0 : Fin 1))
      = max (ms (ix2 r (0 : Fin 1))) (Finset.univ.fold max ⊥ fun j : Fin 1024 => k0_pay7 (F := Ideal) x1 x2 x4 (ix2 r j)) := by
  unfold k0_pay8
  refine (maximumf_apply _ _ _).trans ?_
  refine congrArg (max _) ?_
  refine (column_apply _ _).trans ?_
  exact blockMax_apply _ _

/-- The rescaling factor of row `r`. -/
theorem pay9_apply (x1 x2 : Vec Ideal S1024x64 .f32) (x4 : Vec Ideal S1024x1024 .f32) (ms : Vec Ideal S1024x1 .f32) (r : Fin 1024) :
    k0_pay9 (F := Ideal) x1 x2 x4 ms (ix2 r (0 : Fin 1))
      = Ideal.exp (ms (ix2 r (0 : Fin 1)) - k0_pay8 (F := Ideal) x1 x2 x4 ms (ix2 r (0 : Fin 1))) := by
  unfold k0_pay9
  rfl

/-- The block's unnormalised weights. -/
theorem pay10_apply (x1 x2 : Vec Ideal S1024x64 .f32) (x4 : Vec Ideal S1024x1024 .f32) (ms : Vec Ideal S1024x1 .f32) (r j : Fin 1024) :
    k0_pay10 (F := Ideal) x1 x2 x4 ms (ix2 r j)
      = Ideal.exp (k0_pay7 (F := Ideal) x1 x2 x4 (ix2 r j) - k0_pay8 (F := Ideal) x1 x2 x4 ms (ix2 r (0 : Fin 1))) := by
  unfold k0_pay10
  show Ideal.exp (k0_pay7 (F := Ideal) x1 x2 x4 (ix2 r j)
    - broadcastTo S1024x1024 (k0_pay8 (F := Ideal) x1 x2 x4 ms) broadcasts_S1024x1_S1024x1024 (ix2 r j)) = _
  rw [bcast_col_1024_apply]

/-- The new denominator of row `r`. -/
theorem pay11_apply (x1 x2 : Vec Ideal S1024x64 .f32) (x4 : Vec Ideal S1024x1024 .f32) (ms ls : Vec Ideal S1024x1 .f32) (r : Fin 1024) :
    k0_pay11 (F := Ideal) x1 x2 x4 ms ls (ix2 r (0 : Fin 1))
      = k0_pay9 (F := Ideal) x1 x2 x4 ms (ix2 r (0 : Fin 1)) * ls (ix2 r (0 : Fin 1))
        + ∑ j : Fin 1024, k0_pay10 (F := Ideal) x1 x2 x4 ms (ix2 r j) := by
  unfold k0_pay11
  refine (congrFun (shapeCast_self _ _) _).trans ?_
  refine (addf_apply _ _ _).trans ?_
  refine congrArg₂ (· + ·) (mulf_apply _ _ _) ?_
  refine (column_apply _ _).trans ?_
  exact blockSum_apply _ _

/-- The carried numerator, rescaled. -/
theorem pay12_apply (x1 x2 : Vec Ideal S1024x64 .f32) (x4 : Vec Ideal S1024x1024 .f32) (ms : Vec Ideal S1024x1 .f32)
    (accs : Vec Ideal S1024x128 .f32) (r : Fin 1024) (d : Fin 128) :
    k0_pay12 (F := Ideal) x1 x2 x4 ms accs (ix2 r d)
      = k0_pay9 (F := Ideal) x1 x2 x4 ms (ix2 r (0 : Fin 1)) * accs (ix2 r d) := by
  unfold k0_pay12
  simp only [mulf_apply]
  rw [bcast_col_128_apply]

/-- The new numerator: the rescaled one plus the block's weighted value rows. -/
theorem pay1_apply (P : FVec Ideal S1024x1024 .f32) (y : FVec Ideal S1024x128 .f32) (x3 : Vec Ideal S1024x128 .f32) (r : Fin 1024) (d : Fin 128) :
    k0_pay1 (F := Ideal) P y x3 (ix2 r d) = y (ix2 r d) + ∑ j : Fin 1024, P (ix2 r j) * x3 (ix2 j d) := by
  unfold k0_pay1
  simp only [shapeCast_self, addf_apply]
  rw [matmul_values_apply]

/-- The maximum is stored as it is. -/
theorem pay2_eq (v : FVec Ideal S1024x1 .f32) : k0_pay2 (F := Ideal) v = v := by
  unfold k0_pay2
  exact shapeCast_self v _

/-- The last point's result: divide, add the residual, apply the perceptron. -/
theorem pay3_apply (acc : Vec Ideal S1024x128 .f32) (l : Vec Ideal S1024x1 .f32) (x0 : Vec Ideal S1024x128 .f32)
    (w1 : Vec Ideal S128x128 .f32) (b1 : Vec Ideal S1x128 .f32) (w2 : Vec Ideal S128x128 .f32) (b2 : Vec Ideal S1x128 .f32)
    (r : Fin 1024) (d : Fin 128) :
    k0_pay3 (F := Ideal) acc l x0 w1 b1 w2 b2 (ix2 r d)
      = Cert.Attn.mlpRow w1 (fun h => b1 (ix2 (0 : Fin 1) h)) w2 (fun h => b2 (ix2 (0 : Fin 1) h))
          (fun e => x0 (ix2 r e) + Ideal.div (acc (ix2 r e)) (l (ix2 r (0 : Fin 1)))) d := by
  unfold k0_pay3 Cert.Attn.mlpRow
  simp only [shapeCast_self, addf_apply]
  rw [matmul_layer_apply]
  simp only [divf_apply, bcast_col_128_apply, bcast_row_128_apply, maximumf_apply, addf_apply, broadcast_apply,
    Ideal.ofBits_def, Ideal.ofBits_zero_f32]
  simp only [matmul_layer_apply]
  simp only [addf_apply, divf_apply, bcast_col_128_apply]

/-- The reset values. -/
theorem pay4_apply (r : Fin 1024) : k0_pay4 (F := Ideal) (ix2 r (0 : Fin 1)) = (⊥ : EReal) := by
  unfold k0_pay4
  simp only [shapeCast_self, broadcast_apply]
  exact Cert.Attn.ofBits_neg_inf

theorem pay5_apply (r : Fin 1024) : k0_pay5 (F := Ideal) (ix2 r (0 : Fin 1)) = (0 : EReal) := by
  unfold k0_pay5
  simp only [shapeCast_self, broadcast_apply]
  exact Ideal.ofBits_zero_f32

theorem pay6_apply (r : Fin 1024) (d : Fin 128) : k0_pay6 (F := Ideal) (ix2 r d) = (0 : EReal) := by
  unfold k0_pay6
  simp only [shapeCast_self, broadcast_apply]
  exact Ideal.ofBits_zero_f32

end Cert.KernelIdeal.Pay

end
-- ==== Proof.Pieces.lean ====
/-
  What each case of the kernel body leaves in the carried running maximum, denominator and numerator, and in the
  output block, as the body's own arithmetic applied to the point's input blocks and to what the point before left.

  At the first column block of a row block the three carried buffers are reset (`-∞`, `0`, `0`) and then updated, so
  what remains is the update applied to the reset values; at the other column blocks the update is applied to the
  carried values; at the last column block the output block is the epilogue of the updated numerator and denominator.
-/
import proofs.«407300_j9534827397806_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

/-- The zero offsets of a whole-block access, as the constant function. -/
private theorem hz : (![0, 0] : Fin 2 → Nat) = fun _ => 0 := funext fun a => by fin_cases a <;> rfl

/-- First column block: the running maximum after the update from `-∞`. -/
theorem sout0_A_0_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : cond0_0 i) (hc1 : ¬cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay2 (k0_pay8 x1 x2 x4 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz, View.readCov_unit_zero (S := S1024x1) _ hz, View.readCov_unit_zero (S := S1024x128) _ hz]

/-- First column block: the denominator after the update from `0`. -/
theorem sout0_A_1_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : cond0_0 i) (hc1 : ¬cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay11 x1 x2 x4 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz, View.readCov_unit_zero (S := S1024x1) _ hz, View.readCov_unit_zero (S := S1024x128) _ hz]

/-- First column block: the numerator after the update from `0`. -/
theorem sout0_A_2_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : cond0_0 i) (hc1 : ¬cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (k0_pay10 x1 x2 x4 (k0_pay4 (F := F))) (k0_pay12 x1 x2 x4 (k0_pay4 (F := F)) (k0_pay6 (F := F))) x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz, View.readCov_unit_zero (S := S1024x1) _ hz, View.readCov_unit_zero (S := S1024x128) _ hz]

/-- A middle column block: the running maximum updated from the carried one. -/
theorem sout0_B_0_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : ¬cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay2 (k0_pay8 x1 x2 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz]

/-- A middle column block: the denominator updated from the carried one. -/
theorem sout0_B_1_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : ¬cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay11 x1 x2 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz]

/-- A middle column block: the numerator updated from the carried one. -/
theorem sout0_B_2_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : ¬cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay1 (k0_pay10 x1 x2 x4 xs0) (k0_pay12 x1 x2 x4 xs0 xs2) x3 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz]

/-- The last column block: the running maximum updated from the carried one. -/
theorem sout0_C_0_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay2 (k0_pay8 x1 x2 x4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz]

/-- The last column block: the denominator updated from the carried one. -/
theorem sout0_C_1_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay11 x1 x2 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz]

/-- The last column block: the numerator updated from the carried one. -/
theorem sout0_C_2_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay1 (k0_pay10 x1 x2 x4 xs0) (k0_pay12 x1 x2 x4 xs0 xs2) x3 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz]

/-- The last column block: the output block is the epilogue of the updated numerator and denominator. -/
theorem out0_C_9_eq (c : Dev nD) (i : grid0.Coords) (arg2 : Memref sig .tc .vmem S1024x128 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (hc0 : ¬cond0_0 i) (hc1 : cond0_1 i) (x0 : Vec F S1024x128 .f32) (x1 : Vec F S1024x64 .f32) (x2 : Vec F S1024x64 .f32) (x3 : Vec F S1024x128 .f32) (x4 : Vec F S1024x1024 .f32) (x5 : Vec F S128x128 .f32) (x6 : Vec F S1x128 .f32) (x7 : Vec F S128x128 .f32) (x8 : Vec F S1x128 .f32) (xs0 : Vec F S1024x1 .f32) (xs1 : Vec F S1024x1 .f32) (xs2 : Vec F S1024x128 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 (k0_pay1 (k0_pay10 x1 x2 x4 xs0) (k0_pay12 x1 x2 x4 xs0 xs2) x3) (k0_pay11 x1 x2 x4 xs0 xs1) x0 x5 x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x128) hz, View.ld_unit_zero (S := S1024x64) hz, View.ld_unit_zero (S := S1024x1024) hz, View.ld_unit_zero (S := S128x128) hz, View.ld_unit_zero (S := S1x128) hz, View.ld_unit_zero (S := S1024x1) hz, View.readCov_unit_zero (S := S1024x1) _ hz, View.readCov_unit_zero (S := S1024x128) _ hz]

end Cert.KernelIdeal.Pieces

end
-- ==== Proof.Blocks.lean ====
/-
  The input windows' blocks are restrictions of the operand arrays, and the output array is put together from the
  blocks stored at the last column block of each row block.

  Grid point `t = 4 * qi + ki` stages rows `1024 * qi ..` of the residual input, the keys and the bias, and rows
  `1024 * ki ..` of the queries and the values (the bias block also takes columns `1024 * ki ..`); the weights and
  biases of the perceptron are staged whole.  The output's block `qi` is written back once, at `ki = 3`, and the
  four blocks tile the array.
-/
import proofs.«407300_j9534827397806_3_alg».proof.Proof.Gen.KernelIdeal.Value
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ)

/-- The array row that row `r` of a block staged at point `t` along the row-block axis is. -/
def rowOf (t : Fin cfg0.N) (r : Fin 1024) : Fin 4096 :=
  ⟨1024 * (t.val / 4) + r.val, by have := lt_of_lt_of_eq t.isLt N_0; omega⟩

/-- The array row (or column) that row `j` of a block staged at point `t` along the column-block axis is. -/
def colOf (t : Fin cfg0.N) (j : Fin 1024) : Fin 4096 :=
  ⟨1024 * (t.val % 4) + j.val, by omega⟩

/-! The blocks and the arrays at their literal types. -/
abbrev xblk (c : Dev nD) (t : Fin cfg0.N) : Vec F S1024x128 .f32 := iblk m c 0 t
abbrev kblk (c : Dev nD) (t : Fin cfg0.N) : Vec F S1024x64 .f32 := iblk m c 1 t
abbrev qblk (c : Dev nD) (t : Fin cfg0.N) : Vec F S1024x64 .f32 := iblk m c 2 t
abbrev vblk (c : Dev nD) (t : Fin cfg0.N) : Vec F S1024x128 .f32 := iblk m c 3 t
abbrev bblk (c : Dev nD) (t : Fin cfg0.N) : Vec F S1024x1024 .f32 := iblk m c 4 t
abbrev w1blk (c : Dev nD) (t : Fin cfg0.N) : Vec F S128x128 .f32 := iblk m c 5 t
abbrev b1blk (c : Dev nD) (t : Fin cfg0.N) : Vec F S1x128 .f32 := iblk m c 6 t
abbrev w2blk (c : Dev nD) (t : Fin cfg0.N) : Vec F S128x128 .f32 := iblk m c 7 t
abbrev b2blk (c : Dev nD) (t : Fin cfg0.N) : Vec F S1x128 .f32 := iblk m c 8 t

abbrev xarr (c : Dev nD) : Vec F S4096x128 .f32 := V m c main_arg0
abbrev karr (c : Dev nD) : Vec F S4096x64 .f32 := V m c main_v0
abbrev qarr (c : Dev nD) : Vec F S4096x64 .f32 := V m c main_v1
abbrev varr (c : Dev nD) : Vec F S4096x128 .f32 := V m c main_v5
abbrev barr (c : Dev nD) : Vec F S4096x4096 .f32 := V m c main_v16
abbrev w1arr (c : Dev nD) : Vec F S128x128 .f32 := V m c main_arg10
abbrev b1arr (c : Dev nD) : Vec F S1x128 .f32 := V m c main_v17
abbrev w2arr (c : Dev nD) : Vec F S128x128 .f32 := V m c main_arg12
abbrev b2arr (c : Dev nD) : Vec F S1x128 .f32 := V m c main_v18

/-- The windows' block indices at grid point `t`: the row-block windows sit at block `t / 4`, the column-block windows at block
    `t % 4`, the bias at both, and the whole-array windows at block `0`. -/
theorem idx_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = 0)
    ∧ (win0_3.index t (0 : Fin 2) = t.val % 4 ∧ win0_3.index t (1 : Fin 2) = 0)
    ∧ (win0_4.index t (0 : Fin 2) = t.val / 4 ∧ win0_4.index t (1 : Fin 2) = t.val % 4)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val / 4 ∧ win0_9.index t (1 : Fin 2) = 0) :=
  (by decide +kernel : ∀ t : Fin grid0.N, _)

/-- The output's block is written back exactly at the last column block of each row block. -/
theorem flush_iff : ∀ t : Fin cfg0.N, (cfg0.win 9).flush t = true ↔ t.val % 4 = 3 :=
  (by decide +kernel : ∀ t : Fin grid0.N, _)

/-- An index of the output array lies in point `t`'s block iff each coordinate lies in the block's range on its axis. -/
theorem mem_oblk (t : Fin cfg0.N) (i : S4096x128.Idx) :
    i ∈ ((cfg0.win 9).blk t).view.set ↔ ∀ a : Fin 2, win0_9.index t a * S1024x128.size a ≤ (i a).val
      ∧ (i a).val < win0_9.index t a * S1024x128.size a + S1024x128.size a := by
  show i ∈ ((View.whole main_v19).slice (win0_9.rect t)).set ↔ _
  rw [View.set_slice_whole, Rect.mem_set_unit]
  exact Iff.rfl

/-- What a last-column-block point writes back is its rows of `G`, when the stored block is. -/
theorem out_flushed (c : Dev nD) (G : Vec F S4096x128 .f32)
    (hG : ∀ t : Fin cfg0.N, t.val % 4 = 3 → ∀ (r : Fin 1024) (e : Fin 128),
      ((outsAt0 m c t.val t.isLt).1 : Vec F S1024x128 .f32) (ix2 r e) = G (ix2 (rowOf t r) e))
    (t : Fin cfg0.N) (hf : (cfg0.win 9).flush t = true) :
    (dats m 0 c).flushed 9 t = ((cfg0.win 9).blk t).view.read (Elt F) G := by
  have h3 : t.val % 4 = 3 := (flush_iff t).mp hf
  obtain ⟨-, -, -, -, -, -, -, -, -, ⟨h0, h1⟩⟩ := idx_facts t
  rw [Value.flushed9]
  funext y
  obtain ⟨r, e, rfl⟩ : ∃ (r : Fin 1024) (e : Fin 128), y = ix2 r e := ⟨y 0, y 1, eq_ix2 y⟩
  show ((outsAt0 m c t.val t.isLt).1 : Vec F S1024x128 .f32) ((cfg0.win 9).xinj (grid0.coords t) (ix2 r e))
    = G (((cfg0.win 9).blk t).view.emb (ix2 r e))
  have hx : ((cfg0.win 9).xinj (grid0.coords t) (ix2 r e) : S1024x128.Idx) = ix2 r e := by
    funext a
    match a with
    | ⟨0, _⟩ => rfl
    | ⟨1, _⟩ => rfl
  rw [hx, hG t h3 r e]
  refine congrArg _ ?_
  funext a
  apply Fin.ext
  match a with
  | ⟨0, _⟩ => show 1024 * (t.val / 4) + r.val = win0_9.index t (0 : Fin 2) * 1024 + 1 * r.val; omega
  | ⟨1, _⟩ => show e.val = win0_9.index t (1 : Fin 2) * 128 + 1 * e.val; omega

/-- Every row of the output array lies in the block of the last column block of its row block. -/
theorem out_cover (i : S4096x128.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  have hlt : 4 * ((i 0).val / 1024) + 3 < cfg0.N := lt_of_lt_of_eq (by omega) N_0.symm
  have htv : (⟨4 * ((i 0).val / 1024) + 3, hlt⟩ : Fin cfg0.N).val = 4 * ((i 0).val / 1024) + 3 := rfl
  obtain ⟨-, -, -, -, -, -, -, -, -, ⟨h0, h1⟩⟩ := idx_facts ⟨4 * ((i 0).val / 1024) + 3, hlt⟩
  refine ⟨⟨4 * ((i 0).val / 1024) + 3, hlt⟩, (flush_iff _).mpr (by rw [htv]; omega), ?_⟩
  rw [mem_oblk]
  intro a
  match a with
  | ⟨0, _⟩ =>
    show win0_9.index ⟨4 * ((i 0).val / 1024) + 3, hlt⟩ (0 : Fin 2) * 1024 ≤ (i 0).val
      ∧ (i 0).val < win0_9.index ⟨4 * ((i 0).val / 1024) + 3, hlt⟩ (0 : Fin 2) * 1024 + 1024
    rw [h0, htv]; omega
  | ⟨1, _⟩ =>
    show win0_9.index ⟨4 * ((i 0).val / 1024) + 3, hlt⟩ (1 : Fin 2) * 128 ≤ (i 1).val
      ∧ (i 1).val < win0_9.index ⟨4 * ((i 0).val / 1024) + 3, hlt⟩ (1 : Fin 2) * 128 + 128
    rw [h1]; omega

theorem xblk_apply (c : Dev nD) (t : Fin cfg0.N) (r : Fin 1024) (e : Fin 128) :
    xblk m c t (ix2 r e) = xarr m c (ix2 (rowOf t r) e) := by
  obtain ⟨⟨h0, h1⟩, -⟩ := idx_facts t
  show V m c main_arg0 (((cfg0.win 0).blk t).view.emb (ix2 r e)) = V m c main_arg0 (ix2 (rowOf t r) e)
  refine congrArg _ ?_
  funext a
  apply Fin.ext
  match a with
  | ⟨0, _⟩ => show win0_0.index t (0 : Fin 2) * 1024 + 1 * r.val = 1024 * (t.val / 4) + r.val; omega
  | ⟨1, _⟩ => show win0_0.index t (1 : Fin 2) * 128 + 1 * e.val = e.val; omega

theorem kblk_apply (c : Dev nD) (t : Fin cfg0.N) (r : Fin 1024) (e : Fin 64) :
    kblk m c t (ix2 r e) = karr m c (ix2 (rowOf t r) e) := by
  obtain ⟨-, ⟨h0, h1⟩, -⟩ := idx_facts t
  show V m c main_v0 (((cfg0.win 1).blk t).view.emb (ix2 r e)) = V m c main_v0 (ix2 (rowOf t r) e)
  refine congrArg _ ?_
  funext a
  apply Fin.ext
  match a with
  | ⟨0, _⟩ => show win0_1.index t (0 : Fin 2) * 1024 + 1 * r.val = 1024 * (t.val / 4) + r.val; omega
  | ⟨1, _⟩ => show win0_1.index t (1 : Fin 2) * 64 + 1 * e.val = e.val; omega

theorem qblk_apply (c : Dev nD) (t : Fin cfg0.N) (j : Fin 1024) (e : Fin 64) :
    qblk m c t (ix2 j e) = qarr m c (ix2 (colOf t j) e) := by
  obtain ⟨-, -, ⟨h0, h1⟩, -⟩ := idx_facts t
  show V m c main_v1 (((cfg0.win 2).blk t).view.emb (ix2 j e)) = V m c main_v1 (ix2 (colOf t j) e)
  refine congrArg _ ?_
  funext a
  apply Fin.ext
  match a with
  | ⟨0, _⟩ => show win0_2.index t (0 : Fin 2) * 1024 + 1 * j.val = 1024 * (t.val % 4) + j.val; omega
  | ⟨1, _⟩ => show win0_2.index t (1 : Fin 2) * 64 + 1 * e.val = e.val; omega

theorem vblk_apply (c : Dev nD) (t : Fin cfg0.N) (j : Fin 1024) (d : Fin 128) :
    vblk m c t (ix2 j d) = varr m c (ix2 (colOf t j) d) := by
  obtain ⟨-, -, -, ⟨h0, h1⟩, -⟩ := idx_facts t
  show V m c main_v5 (((cfg0.win 3).blk t).view.emb (ix2 j d)) = V m c main_v5 (ix2 (colOf t j) d)
  refine congrArg _ ?_
  funext a
  apply Fin.ext
  match a with
  | ⟨0, _⟩ => show win0_3.index t (0 : Fin 2) * 1024 + 1 * j.val = 1024 * (t.val % 4) + j.val; omega
  | ⟨1, _⟩ => show win0_3.index t (1 : Fin 2) * 128 + 1 * d.val = d.val; omega

theorem bblk_apply (c : Dev nD) (t : Fin cfg0.N) (r j : Fin 1024) :
    bblk m c t (ix2 r j) = barr m c (ix2 (rowOf t r) (colOf t j)) := by
  obtain ⟨-, -, -, -, ⟨h0, h1⟩, -⟩ := idx_facts t
  show V m c main_v16 (((cfg0.win 4).blk t).view.emb (ix2 r j)) = V m c main_v16 (ix2 (rowOf t r) (colOf t j))
  refine congrArg _ ?_
  funext a
  apply Fin.ext
  match a with
  | ⟨0, _⟩ => show win0_4.index t (0 : Fin 2) * 1024 + 1 * r.val = 1024 * (t.val / 4) + r.val; omega
  | ⟨1, _⟩ => show win0_4.index t (1 : Fin 2) * 1024 + 1 * j.val = 1024 * (t.val % 4) + j.val; omega

theorem w1blk_eq (c : Dev nD) (t : Fin cfg0.N) : w1blk m c t = w1arr m c := by
  obtain ⟨-, -, -, -, -, ⟨h0, h1⟩, -⟩ := idx_facts t
  funext j
  obtain ⟨a, b, rfl⟩ : ∃ (a : Fin 128) (b : Fin 128), j = ix2 a b := ⟨j 0, j 1, eq_ix2 j⟩
  show V m c main_arg10 (((cfg0.win 5).blk t).view.emb (ix2 a b)) = V m c main_arg10 (ix2 a b)
  refine congrArg _ ?_
  funext x
  apply Fin.ext
  match x with
  | ⟨0, _⟩ => show win0_5.index t (0 : Fin 2) * 128 + 1 * a.val = a.val; omega
  | ⟨1, _⟩ => show win0_5.index t (1 : Fin 2) * 128 + 1 * b.val = b.val; omega

theorem b1blk_eq (c : Dev nD) (t : Fin cfg0.N) : b1blk m c t = b1arr m c := by
  obtain ⟨-, -, -, -, -, -, ⟨h0, h1⟩, -⟩ := idx_facts t
  funext j
  obtain ⟨a, b, rfl⟩ : ∃ (a : Fin 1) (b : Fin 128), j = ix2 a b := ⟨j 0, j 1, eq_ix2 j⟩
  show V m c main_v17 (((cfg0.win 6).blk t).view.emb (ix2 a b)) = V m c main_v17 (ix2 a b)
  refine congrArg _ ?_
  funext x
  apply Fin.ext
  match x with
  | ⟨0, _⟩ => show win0_6.index t (0 : Fin 2) * 1 + 1 * a.val = a.val; omega
  | ⟨1, _⟩ => show win0_6.index t (1 : Fin 2) * 128 + 1 * b.val = b.val; omega

theorem w2blk_eq (c : Dev nD) (t : Fin cfg0.N) : w2blk m c t = w2arr m c := by
  obtain ⟨-, -, -, -, -, -, -, ⟨h0, h1⟩, -⟩ := idx_facts t
  funext j
  obtain ⟨a, b, rfl⟩ : ∃ (a : Fin 128) (b : Fin 128), j = ix2 a b := ⟨j 0, j 1, eq_ix2 j⟩
  show V m c main_arg12 (((cfg0.win 7).blk t).view.emb (ix2 a b)) = V m c main_arg12 (ix2 a b)
  refine congrArg _ ?_
  funext x
  apply Fin.ext
  match x with
  | ⟨0, _⟩ => show win0_7.index t (0 : Fin 2) * 128 + 1 * a.val = a.val; omega
  | ⟨1, _⟩ => show win0_7.index t (1 : Fin 2) * 128 + 1 * b.val = b.val; omega

theorem b2blk_eq (c : Dev nD) (t : Fin cfg0.N) : b2blk m c t = b2arr m c := by
  obtain ⟨-, -, -, -, -, -, -, -, ⟨h0, h1⟩, -⟩ := idx_facts t
  funext j
  obtain ⟨a, b, rfl⟩ : ∃ (a : Fin 1) (b : Fin 128), j = ix2 a b := ⟨j 0, j 1, eq_ix2 j⟩
  show V m c main_v18 (((cfg0.win 8).blk t).view.emb (ix2 a b)) = V m c main_v18 (ix2 a b)
  refine congrArg _ ?_
  funext x
  apply Fin.ext
  match x with
  | ⟨0, _⟩ => show win0_8.index t (0 : Fin 2) * 1 + 1 * a.val = a.val; omega
  | ⟨1, _⟩ => show win0_8.index t (1 : Fin 2) * 128 + 1 * b.val = b.val; omega

/-- From blocks to the array: if at every last column block the stored output block is the restriction of one
    function `G` to the point's rows, the output array ends as `G`. -/
theorem out_final (c : Dev nD) (G : Vec F S4096x128 .f32)
    (hG : ∀ t : Fin cfg0.N, t.val % 4 = 3 → ∀ (r : Fin 1024) (e : Fin 128),
      ((outsAt0 m c t.val t.isLt).1 : Vec F S1024x128 .f32) (ix2 r e) = G (ix2 (rowOf t r) e)) :
    ((dats m 0 c).arrAt 9 cfg0.N : Vec F S4096x128 .f32) = G := by
  exact (dats m 0 c).arrAt_eq_of_cover 9 G (fun t hf => out_flushed m c G hG t hf) out_cover

end Cert.KernelIdeal.Blocks

end
-- ==== Proof.Invariant.lean ====
/-
  The running state of one row, and the induction over the column blocks.

  Fix a row block.  After the column block `k` has been handled, row `r` of the three carried buffers holds the
  summary of the columns `0 .. 1024 (k + 1) - 1` of the array row: their largest score, the sum of `exp (score - max)`
  and the sums of `exp (score - max) * value`.  The first column block starts from the reset values, each further one
  rescales and adds (the online-softmax step).  After the last column block the summary is of the whole row, the
  quotient of the two sums is the softmax-weighted mean of the value rows, and the stored output block is the
  specification's rows.
-/
import proofs.«407300_j9534827397806_3_alg».proof.Proof.Spec
import proofs.«407300_j9534827397806_3_alg».proof.Proof.OnlineSoftmax
import proofs.«407300_j9534827397806_3_alg».proof.Proof.Payloads
import proofs.«407300_j9534827397806_3_alg».proof.Proof.Pieces
import proofs.«407300_j9534827397806_3_alg».proof.Proof.Blocks

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Pay Cert.KernelIdeal.Blocks Cert.OnlineSoftmax

/-! ## One row of one point, over plain blocks -/

section Row

variable (x1 x2 : Vec Ideal S1024x64 .f32) (x4 : Vec Ideal S1024x1024 .f32) (x3 : Vec Ideal S1024x128 .f32)
variable (ms ls : Vec Ideal S1024x1 .f32) (accs : Vec Ideal S1024x128 .f32) (r : Fin 1024)

/-- The row's new maximum. -/
theorem row_max :
    k0_pay2 (F := Ideal) (k0_pay8 (F := Ideal) x1 x2 x4 ms) (ix2 r (0 : Fin 1))
      = max (ms (ix2 r (0 : Fin 1))) (Finset.univ.fold max ⊥ fun j : Fin 1024 => k0_pay7 (F := Ideal) x1 x2 x4 (ix2 r j)) := by
  rw [pay2_eq, pay8_apply]

/-- The row's new denominator. -/
theorem row_den :
    k0_pay11 (F := Ideal) x1 x2 x4 ms ls (ix2 r (0 : Fin 1))
      = Ideal.exp (ms (ix2 r (0 : Fin 1))
            - max (ms (ix2 r (0 : Fin 1))) (Finset.univ.fold max ⊥ fun j : Fin 1024 => k0_pay7 (F := Ideal) x1 x2 x4 (ix2 r j)))
          * ls (ix2 r (0 : Fin 1))
        + ∑ j : Fin 1024, Ideal.exp (k0_pay7 (F := Ideal) x1 x2 x4 (ix2 r j)
            - max (ms (ix2 r (0 : Fin 1))) (Finset.univ.fold max ⊥ fun j : Fin 1024 => k0_pay7 (F := Ideal) x1 x2 x4 (ix2 r j))) := by
  rw [pay11_apply, pay9_apply, pay8_apply]
  refine congrArg _ (Finset.sum_congr rfl fun j _ => ?_)
  rw [pay10_apply, pay8_apply]

/-- The row's new numerator, column `d`. -/
theorem row_num (d : Fin 128) :
    k0_pay1 (F := Ideal) (k0_pay10 (F := Ideal) x1 x2 x4 ms) (k0_pay12 (F := Ideal) x1 x2 x4 ms accs) x3 (ix2 r d)
      = Ideal.exp (ms (ix2 r (0 : Fin 1))
            - max (ms (ix2 r (0 : Fin 1))) (Finset.univ.fold max ⊥ fun j : Fin 1024 => k0_pay7 (F := Ideal) x1 x2 x4 (ix2 r j)))
          * accs (ix2 r d)
        + ∑ j : Fin 1024, Ideal.exp (k0_pay7 (F := Ideal) x1 x2 x4 (ix2 r j)
            - max (ms (ix2 r (0 : Fin 1))) (Finset.univ.fold max ⊥ fun j : Fin 1024 => k0_pay7 (F := Ideal) x1 x2 x4 (ix2 r j)))
          * x3 (ix2 j d) := by
  rw [pay1_apply, pay12_apply, pay9_apply, pay8_apply]
  refine congrArg _ (Finset.sum_congr rfl fun j _ => ?_)
  rw [pay10_apply, pay8_apply]

variable (s : Fin 4096 → ℝ) (v : Fin 4096 → Fin 128 → ℝ) (emb : Fin 1024 → Fin 4096)

/-- The first column block of a row: from the reset values the row's state summarises the block's columns. -/
theorem row_first (hinj : Function.Injective emb) (hms : ms (ix2 r (0 : Fin 1)) = ⊥) (hls : ls (ix2 r (0 : Fin 1)) = 0) (haccs : ∀ d, accs (ix2 r d) = 0)
    (hS : ∀ j, k0_pay7 (F := Ideal) x1 x2 x4 (ix2 r j) = (s (emb j) : EReal))
    (hV : ∀ j d, x3 (ix2 j d) = (v (emb j) d : EReal)) :
    Summ s v (Finset.univ.image emb)
      (k0_pay2 (F := Ideal) (k0_pay8 (F := Ideal) x1 x2 x4 ms) (ix2 r (0 : Fin 1)))
      (k0_pay11 (F := Ideal) x1 x2 x4 ms ls (ix2 r (0 : Fin 1)))
      (fun d => k0_pay1 (F := Ideal) (k0_pay10 (F := Ideal) x1 x2 x4 ms) (k0_pay12 (F := Ideal) x1 x2 x4 ms accs) x3 (ix2 r d)) := by
  rw [row_max, row_den]
  have e : (fun d => k0_pay1 (F := Ideal) (k0_pay10 (F := Ideal) x1 x2 x4 ms) (k0_pay12 (F := Ideal) x1 x2 x4 ms accs) x3 (ix2 r d))
      = fun d => _ := funext fun d => row_num x1 x2 x4 x3 ms accs r d
  rw [e, hms, hls]
  simp only [haccs]
  exact init s v emb hinj (fun j => k0_pay7 (F := Ideal) x1 x2 x4 (ix2 r j)) hS (fun j d => x3 (ix2 j d)) hV

/-- A further column block: the row's state summarises the columns seen before together with the block's. -/
theorem row_next (hinj : Function.Injective emb) (T : Finset (Fin 4096))
    (hprev : Summ s v T (ms (ix2 r (0 : Fin 1))) (ls (ix2 r (0 : Fin 1))) (fun d => accs (ix2 r d)))
    (hdisj : ∀ j, emb j ∉ T)
    (hS : ∀ j, k0_pay7 (F := Ideal) x1 x2 x4 (ix2 r j) = (s (emb j) : EReal))
    (hV : ∀ j d, x3 (ix2 j d) = (v (emb j) d : EReal)) :
    Summ s v (T ∪ Finset.univ.image emb)
      (k0_pay2 (F := Ideal) (k0_pay8 (F := Ideal) x1 x2 x4 ms) (ix2 r (0 : Fin 1)))
      (k0_pay11 (F := Ideal) x1 x2 x4 ms ls (ix2 r (0 : Fin 1)))
      (fun d => k0_pay1 (F := Ideal) (k0_pay10 (F := Ideal) x1 x2 x4 ms) (k0_pay12 (F := Ideal) x1 x2 x4 ms accs) x3 (ix2 r d)) := by
  rw [row_max, row_den]
  have e : (fun d => k0_pay1 (F := Ideal) (k0_pay10 (F := Ideal) x1 x2 x4 ms) (k0_pay12 (F := Ideal) x1 x2 x4 ms accs) x3 (ix2 r d))
      = fun d => _ := funext fun d => row_num x1 x2 x4 x3 ms accs r d
  rw [e]
  exact step s v T _ _ _ hprev emb hinj hdisj (fun j => k0_pay7 (F := Ideal) x1 x2 x4 (ix2 r j)) hS (fun j d => x3 (ix2 j d)) hV

end Row

/-! ## What a point leaves, by case -/

section Point

variable (m : (ℓ : Loc nD τ sig) → Buf (Elt Ideal) ℓ) (c : Dev nD)

/-- What the point before `t` left (at `t = 0` a value nothing reads). -/
abbrev prevOuts (t : Fin cfg0.N) : Vec Ideal S1024x128 .f32 × Vec Ideal S1024x1 .f32 × Vec Ideal S1024x1 .f32 × Vec Ideal S1024x128 .f32 :=
  outsAt0 m c (t.val - 1) (Nat.lt_of_le_of_lt (Nat.sub_le _ _) t.isLt)

/-- At the first column block of a row block the carried buffers are the update of the reset values. -/
theorem point_first (t : Fin cfg0.N) (h0 : t.val % 4 = 0) (h1 : ¬t.val % 4 = 3) :
    (outsAt0 m c t.val t.isLt).2.1 = k0_pay2 (F := Ideal) (k0_pay8 (F := Ideal) (kblk m c t) (qblk m c t) (bblk m c t) (k0_pay4 (F := Ideal)))
    ∧ (outsAt0 m c t.val t.isLt).2.2.1 = k0_pay11 (F := Ideal) (kblk m c t) (qblk m c t) (bblk m c t) (k0_pay4 (F := Ideal)) (k0_pay5 (F := Ideal))
    ∧ (outsAt0 m c t.val t.isLt).2.2.2 = k0_pay1 (F := Ideal) (k0_pay10 (F := Ideal) (kblk m c t) (qblk m c t) (bblk m c t) (k0_pay4 (F := Ideal))) (k0_pay12 (F := Ideal) (kblk m c t) (qblk m c t) (bblk m c t) (k0_pay4 (F := Ideal)) (k0_pay6 (F := Ideal))) (vblk m c t) := by
  rw [outsAt0_A m c t h0 h1]; dsimp only
  exact ⟨Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t),
    Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t),
    Pieces.sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)⟩

/-- At a middle column block the carried buffers are the update of what the point before left. -/
theorem point_middle (t : Fin cfg0.N) (h0 : ¬t.val % 4 = 0) (h1 : ¬t.val % 4 = 3) :
    (outsAt0 m c t.val t.isLt).2.1 = k0_pay2 (F := Ideal) (k0_pay8 (F := Ideal) (kblk m c t) (qblk m c t) (bblk m c t) (prevOuts m c t).2.1)
    ∧ (outsAt0 m c t.val t.isLt).2.2.1 = k0_pay11 (F := Ideal) (kblk m c t) (qblk m c t) (bblk m c t) (prevOuts m c t).2.1 (prevOuts m c t).2.2.1
    ∧ (outsAt0 m c t.val t.isLt).2.2.2 = k0_pay1 (F := Ideal) (k0_pay10 (F := Ideal) (kblk m c t) (qblk m c t) (bblk m c t) (prevOuts m c t).2.1) (k0_pay12 (F := Ideal) (kblk m c t) (qblk m c t) (bblk m c t) (prevOuts m c t).2.1 (prevOuts m c t).2.2.2) (vblk m c t) := by
  rw [outsAt0_B m c t h0 h1]; dsimp only
  exact ⟨Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At the last column block likewise, and the output block is the epilogue of the updated numerator and denominator. -/
theorem point_last (t : Fin cfg0.N) (h0 : ¬t.val % 4 = 0) (h1 : t.val % 4 = 3) :
    (outsAt0 m c t.val t.isLt).2.1 = k0_pay2 (F := Ideal) (k0_pay8 (F := Ideal) (kblk m c t) (qblk m c t) (bblk m c t) (prevOuts m c t).2.1)
    ∧ (outsAt0 m c t.val t.isLt).2.2.1 = k0_pay11 (F := Ideal) (kblk m c t) (qblk m c t) (bblk m c t) (prevOuts m c t).2.1 (prevOuts m c t).2.2.1
    ∧ (outsAt0 m c t.val t.isLt).2.2.2 = k0_pay1 (F := Ideal) (k0_pay10 (F := Ideal) (kblk m c t) (qblk m c t) (bblk m c t) (prevOuts m c t).2.1) (k0_pay12 (F := Ideal) (kblk m c t) (qblk m c t) (bblk m c t) (prevOuts m c t).2.1 (prevOuts m c t).2.2.2) (vblk m c t)
    ∧ (outsAt0 m c t.val t.isLt).1
        = k0_pay3 (F := Ideal) (k0_pay1 (F := Ideal) (k0_pay10 (F := Ideal) (kblk m c t) (qblk m c t) (bblk m c t) (prevOuts m c t).2.1) (k0_pay12 (F := Ideal) (kblk m c t) (qblk m c t) (bblk m c t) (prevOuts m c t).2.1 (prevOuts m c t).2.2.2) (vblk m c t)) (k0_pay11 (F := Ideal) (kblk m c t) (qblk m c t) (bblk m c t) (prevOuts m c t).2.1 (prevOuts m c t).2.2.1) (xblk m c t) (w1blk m c t) (b1blk m c t) (w2blk m c t) (b2blk m c t) := by
  rw [outsAt0_C m c t h0 h1]; dsimp only
  exact ⟨Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.out0_C_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

end Point

/-! ## The induction over the points -/

section Run

variable (m : (ℓ : Loc nD τ sig) → Buf (Elt Ideal) ℓ) (c : Dev nD)
variable (hS : ∀ R j : Fin 4096, ∃ x : ℝ, Cert.Attn.score (karr m c) (qarr m c) (barr m c) R j = (x : EReal))
variable (hV : ∀ i : S4096x128.Idx, ∃ x : ℝ, varr m c i = (x : EReal))

/-- The real number a score is. -/
def sR (R j : Fin 4096) : ℝ := Classical.choose (hS R j)

theorem sR_spec (R j : Fin 4096) : Cert.Attn.score (karr m c) (qarr m c) (barr m c) R j = (sR m c hS R j : EReal) :=
  Classical.choose_spec (hS R j)

/-- The real number a value entry is. -/
def vR (j : Fin 4096) (d : Fin 128) : ℝ := Classical.choose (hV (ix2 j d))

theorem vR_spec (j : Fin 4096) (d : Fin 128) : varr m c (ix2 j d) = (vR m c hV j d : EReal) :=
  Classical.choose_spec (hV (ix2 j d))

/-- A block's scores are the array row's scores at the block's columns. -/
theorem blk_score (t : Fin cfg0.N) (r j : Fin 1024) :
    k0_pay7 (F := Ideal) (kblk m c t) (qblk m c t) (bblk m c t) (ix2 r j) = (sR m c hS (rowOf t r) (colOf t j) : EReal) := by
  rw [pay7_apply, bblk_apply]
  simp only [kblk_apply, qblk_apply]
  exact sR_spec m c hS (rowOf t r) (colOf t j)

/-- A block's value rows are the array's rows at the block's columns. -/
theorem blk_val (t : Fin cfg0.N) (j : Fin 1024) (d : Fin 128) :
    vblk m c t (ix2 j d) = (vR m c hV (colOf t j) d : EReal) := by
  rw [vblk_apply]
  exact vR_spec m c hV (colOf t j) d

/-- The columns of the first `k + 1` column blocks. -/
def cols (k : ℕ) : Finset (Fin 4096) := Finset.univ.filter fun j => j.val < 1024 * (k + 1)

theorem colOf_inj (t : Fin cfg0.N) : Function.Injective (colOf t) := by
  intro a b h
  have := congrArg Fin.val h
  simp only [colOf] at this
  exact Fin.ext (by omega)

theorem image_colOf_first (t : Fin cfg0.N) (h0 : t.val % 4 = 0) : Finset.univ.image (colOf t) = cols 0 := by
  ext j
  simp only [Finset.mem_image, Finset.mem_univ, true_and, cols, Finset.mem_filter]
  constructor
  · rintro ⟨i, rfl⟩
    show 1024 * (t.val % 4) + i.val < 1024 * (0 + 1)
    have := i.isLt; omega
  · intro hj
    exact ⟨⟨j.val, by omega⟩, Fin.ext (by show 1024 * (t.val % 4) + j.val = j.val; omega)⟩

theorem colOf_notin (t : Fin cfg0.N) (k : ℕ) (hk : t.val % 4 = k + 1) (i : Fin 1024) : colOf t i ∉ cols k := by
  simp only [cols, Finset.mem_filter, Finset.mem_univ, true_and, not_lt]
  show 1024 * (k + 1) ≤ 1024 * (t.val % 4) + i.val
  rw [hk]; omega

theorem cols_succ (t : Fin cfg0.N) (k : ℕ) (hk : t.val % 4 = k + 1) : cols k ∪ Finset.univ.image (colOf t) = cols (k + 1) := by
  ext j
  simp only [Finset.mem_union, Finset.mem_image, Finset.mem_univ, true_and, cols, Finset.mem_filter]
  constructor
  · rintro (hj | ⟨i, rfl⟩)
    · omega
    · show 1024 * (t.val % 4) + i.val < 1024 * (k + 1 + 1)
      have := i.isLt; rw [hk]; omega
  · intro hj
    by_cases hlt : j.val < 1024 * (k + 1)
    · exact Or.inl hlt
    · refine Or.inr ⟨⟨j.val - 1024 * (k + 1), by omega⟩, Fin.ext ?_⟩
      show 1024 * (t.val % 4) + (j.val - 1024 * (k + 1)) = j.val
      rw [hk]; omega

theorem cols_three : cols 3 = Finset.univ := by
  ext j
  simp only [cols, Finset.mem_filter, Finset.mem_univ, true_and, iff_true]
  have := j.isLt; omega

/-- After every point, each row of the carried buffers summarises the columns seen so far of its array row. -/
theorem inv_aux : ∀ (n : ℕ) (t : Fin cfg0.N), t.val = n → ∀ r : Fin 1024,
    Summ (sR m c hS (rowOf t r)) (vR m c hV) (cols (t.val % 4))
      ((outsAt0 m c t.val t.isLt).2.1 (ix2 r (0 : Fin 1)))
      ((outsAt0 m c t.val t.isLt).2.2.1 (ix2 r (0 : Fin 1)))
      (fun d => (outsAt0 m c t.val t.isLt).2.2.2 (ix2 r d)) := by
  intro n
  induction n using Nat.strong_induction_on with
  | _ n ih =>
    intro t ht r
    have hN : t.val < 16 := lt_of_lt_of_eq t.isLt N_0
    by_cases h0 : t.val % 4 = 0
    · have h1 : ¬t.val % 4 = 3 := by omega
      obtain ⟨e1, e2, e3⟩ := point_first m c t h0 h1
      rw [e1, e2, e3, h0, ← image_colOf_first t h0]
      exact row_first (kblk m c t) (qblk m c t) (bblk m c t) (vblk m c t) (k0_pay4 (F := Ideal)) (k0_pay5 (F := Ideal))
        (k0_pay6 (F := Ideal)) r (sR m c hS (rowOf t r)) (vR m c hV) (colOf t) (colOf_inj t) (pay4_apply r) (pay5_apply r)
        (fun d => pay6_apply r d) (fun j => blk_score m c hS t r j) (fun j d => blk_val m c hV t j d)
    · have hlt : t.val - 1 < cfg0.N := Nat.lt_of_le_of_lt (Nat.sub_le _ _) t.isLt
      have ihp := ih (t.val - 1) (by omega) ⟨t.val - 1, hlt⟩ rfl r
      have hrow : rowOf ⟨t.val - 1, hlt⟩ r = rowOf t r := Fin.ext (by
        show 1024 * ((t.val - 1) / 4) + r.val = 1024 * (t.val / 4) + r.val
        omega)
      obtain ⟨k, hk⟩ : ∃ k, t.val % 4 = k + 1 := ⟨t.val % 4 - 1, by omega⟩
      have hk' : (t.val - 1) % 4 = k := by omega
      rw [hrow] at ihp
      simp only [hk'] at ihp
      by_cases h1 : t.val % 4 = 3
      · obtain ⟨e1, e2, e3, _⟩ := point_last m c t h0 h1
        rw [e1, e2, e3, hk, ← cols_succ t k hk]
        exact row_next (kblk m c t) (qblk m c t) (bblk m c t) (vblk m c t) (prevOuts m c t).2.1 (prevOuts m c t).2.2.1
          (prevOuts m c t).2.2.2 r (sR m c hS (rowOf t r)) (vR m c hV) (colOf t) (colOf_inj t) (cols k) ihp
          (colOf_notin t k hk) (fun j => blk_score m c hS t r j) (fun j d => blk_val m c hV t j d)
      · obtain ⟨e1, e2, e3⟩ := point_middle m c t h0 h1
        rw [e1, e2, e3, hk, ← cols_succ t k hk]
        exact row_next (kblk m c t) (qblk m c t) (bblk m c t) (vblk m c t) (prevOuts m c t).2.1 (prevOuts m c t).2.2.1
          (prevOuts m c t).2.2.2 r (sR m c hS (rowOf t r)) (vR m c hV) (colOf t) (colOf_inj t) (cols k) ihp
          (colOf_notin t k hk) (fun j => blk_score m c hS t r j) (fun j d => blk_val m c hV t j d)

include hS hV in
/-- At the last column block of a row block the stored output block holds the specification's rows. -/
theorem out_rows (t : Fin cfg0.N) (h3 : t.val % 4 = 3) (r : Fin 1024) (e : Fin 128) :
    ((outsAt0 m c t.val t.isLt).1 : Vec Ideal S1024x128 .f32) (ix2 r e)
      = Cert.Attn.attnSpec (xarr m c) (karr m c) (qarr m c) (barr m c) (varr m c) (w1arr m c) (fun h => b1arr m c (ix2 (0 : Fin 1) h)) (w2arr m c) (fun h => b2arr m c (ix2 (0 : Fin 1) h)) (ix2 (rowOf t r) e) := by
  have h0 : ¬t.val % 4 = 0 := by omega
  obtain ⟨e1, e2, e3, e4⟩ := point_last m c t h0 h3
  have hinv := inv_aux m c hS hV t.val t rfl r
  rw [e1, e2, e3, h3, cols_three] at hinv
  rw [e4, pay3_apply, w1blk_eq, b1blk_eq, w2blk_eq, b2blk_eq]
  show Cert.Attn.mlpRow _ _ _ _ _ e = Cert.Attn.mlpRow _ _ _ _
    (fun e' => xarr m c (ix2 (rowOf t r) e') + Cert.Attn.attended (karr m c) (qarr m c) (barr m c) (varr m c) (rowOf t r) e') e
  refine congrArg (fun u => Cert.Attn.mlpRow (w1arr m c) (fun h => b1arr m c (ix2 (0 : Fin 1) h)) (w2arr m c)
    (fun h => b2arr m c (ix2 (0 : Fin 1) h)) u e) (funext fun e' => ?_)
  rw [xblk_apply]
  refine congrArg _ ?_
  unfold Cert.Attn.attended Cert.Attn.rowMax
  exact final (sR m c hS (rowOf t r)) (vR m c hV) _ _ _ hinv (Cert.Attn.score (karr m c) (qarr m c) (barr m c) (rowOf t r))
    (fun j => sR_spec m c hS (rowOf t r) j) (fun j d => varr m c (ix2 j d)) (fun j d => vR_spec m c hV j d) e'

include hS hV in
/-- The kernel's result array is the specification of its operand arrays. -/
theorem kernel_value :
    ((dats m 0 c).arrAt 9 cfg0.N : Vec Ideal S4096x128 .f32) = Cert.Attn.attnSpec (xarr m c) (karr m c) (qarr m c) (barr m c) (varr m c) (w1arr m c) (fun h => b1arr m c (ix2 (0 : Fin 1) h)) (w2arr m c) (fun h => b2arr m c (ix2 (0 : Fin 1) h)) :=
  out_final m c _ (fun t h3 r e => out_rows m c hS hV t h3 r e)

end Run

end Cert.KernelIdeal.Inv

end
-- ==== Proof.HostVals.lean ====
/-
  What the kernel's own host program hands to the pipeline, as the reference's stages of the same arguments.

  Both programs compute the keys `x W_k`, the queries `x W_q` and the values `x W_v + b_v` by the same operations.
  The per-edge bias differs in arrangement only: the kernel's program flattens the edge array to 4096² rows of 4,
  applies the two small layers and reshapes the column of 4096² numbers to a square, the reference applies the same
  two layers along the last axis of the three-dimensional array; entry `(i, j)` of either is
  `∑ h, relu (∑ d, edge i j d * w₁ d h + b₁ h) * w₂ h 0 + b₂ 0`, row `4096 * i + j` of the flattened form.
  The perceptron's two bias vectors reach the kernel reshaped to one row.
-/
import proofs.«407300_j9534827397806_3_alg».proof.Proof.Gen.KernelIdeal.Frame
import proofs.«407300_j9534827397806_3_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.HostVals

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- The keys. -/
theorem V_keys (c : Dev Cert.KernelIdeal.nD) :
    (Cert.KernelIdeal.Gen.V m c Cert.KernelIdeal.main_v0 : Cert.KernelIdeal.S4096x64.Idx → EReal)
      = Cert.ReferenceIdeal.Read.val_main_v0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results
  rfl

/-- The queries. -/
theorem V_queries (c : Dev Cert.KernelIdeal.nD) :
    (Cert.KernelIdeal.Gen.V m c Cert.KernelIdeal.main_v1 : Cert.KernelIdeal.S4096x64.Idx → EReal)
      = Cert.ReferenceIdeal.Read.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results
  rfl

/-- The values. -/
theorem V_values (c : Dev Cert.KernelIdeal.nD) :
    (Cert.KernelIdeal.Gen.V m c Cert.KernelIdeal.main_v5 : Cert.KernelIdeal.S4096x128.Idx → EReal)
      = Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results
  rfl

/-! ## The per-edge bias: the flattened perceptron, stage by stage -/

section Bias

open Cert.KernelIdeal Cert.KernelIdeal.Gen

/-- Row `4096 * a + b` of the flattened arrays. -/
def row (a b : Fin 4096) : Fin 16777216 := ⟨4096 * a.val + b.val, by have := a.isLt; have := b.isLt; omega⟩

/-- The edge array flattened to 4096² rows of 4. -/
def k6 (e : FVec Ideal S4096x4096x4 .f32) : FVec Ideal S16777216x4 .f32 :=
  shapeCast S16777216x4 e shapeCasts_S4096x4096x4_S16777216x4

/-- Row `4096 * a + b` of the flattened edge array is the edge `(a, b)`. -/
theorem k6_apply (e : FVec Ideal S4096x4096x4 .f32) (a b : Fin 4096) (d : Fin 4) :
    k6 e (ix2 (row a b) d) = e (ix3 a b d) := by
  unfold k6
  refine shapeCast_apply e shapeCasts_S4096x4096x4_S16777216x4 (ix2 (row a b) d) (ix3 a b d) ?_
  rw [Shape.rowMajor_val_three, Shape.rowMajor_val_two]
  show (a.val * 4096 + b.val) * 4 + d.val = (4096 * a.val + b.val) * 4 + d.val
  omega

theorem lhs_k7_0 (i : S16777216x8.Idx) (q : dot_S16777216x4_S4x8_S16777216x8_1_0_0_1_n_n.contr.Idx) :
    (dot_S16777216x4_S4x8_S16777216x8_1_0_0_1_n_n.lhsIdx i q 0).val = (i 0).val := by
  unfold DotDims.lhsIdx
  rw [dif_neg (show ¬(0 : Fin S16777216x4.rank) ∈ dot_S16777216x4_S4x8_S16777216x8_1_0_0_1_n_n.lhsBatch by decide), dif_pos (show (0 : Fin S16777216x4.rank) ∈ dot_S16777216x4_S4x8_S16777216x8_1_0_0_1_n_n.lhsNonContracting by decide)]
  rfl
theorem lhs_k7_1 (i : S16777216x8.Idx) (q : dot_S16777216x4_S4x8_S16777216x8_1_0_0_1_n_n.contr.Idx) :
    (dot_S16777216x4_S4x8_S16777216x8_1_0_0_1_n_n.lhsIdx i q 1).val = (q ⟨0, by decide⟩).val :=
  dot_S16777216x4_S4x8_S16777216x8_1_0_0_1_n_n.lhsIdx_val_of_single rfl i q
theorem rhs_k7_0 (i : S16777216x8.Idx) (q : dot_S16777216x4_S4x8_S16777216x8_1_0_0_1_n_n.contr.Idx) :
    (dot_S16777216x4_S4x8_S16777216x8_1_0_0_1_n_n.rhsIdx i q 0).val = (q ⟨0, by decide⟩).val :=
  dot_S16777216x4_S4x8_S16777216x8_1_0_0_1_n_n.rhsIdx_val_of_single rfl i q
theorem rhs_k7_1 (i : S16777216x8.Idx) (q : dot_S16777216x4_S4x8_S16777216x8_1_0_0_1_n_n.contr.Idx) :
    (dot_S16777216x4_S4x8_S16777216x8_1_0_0_1_n_n.rhsIdx i q 1).val = (i 1).val := by
  unfold DotDims.rhsIdx
  rw [dif_neg (show ¬(1 : Fin S4x8.rank) ∈ dot_S16777216x4_S4x8_S16777216x8_1_0_0_1_n_n.rhsBatch by decide), dif_pos (show (1 : Fin S4x8.rank) ∈ dot_S16777216x4_S4x8_S16777216x8_1_0_0_1_n_n.rhsNonContracting by decide)]
  rfl

/-- The first layer's product, at a row and a hidden unit: the sum over the 4 edge features. -/
theorem dot48_apply (y : FVec Ideal S16777216x4 .f32) (w : FVec Ideal S4x8 .f32) (r : Fin 16777216) (h : Fin 8) :
    Host.dotGeneral (F := Ideal) dot_S16777216x4_S4x8_S16777216x8_1_0_0_1_n_n none y w (ix2 r h) = ∑ d : Fin 4, y (ix2 r d) * w (ix2 d h) := by
  simp only [Host.dotGeneral]
  rw [Ideal.dotGeneral_apply, ← Equiv.sum_comp (ValueIdx.contrEquiv1 dot_S16777216x4_S4x8_S16777216x8_1_0_0_1_n_n 4 rfl rfl).symm]
  refine Finset.sum_congr rfl fun k _ => ?_
  have hk := ValueIdx.contrEquiv1_symm_val dot_S16777216x4_S4x8_S16777216x8_1_0_0_1_n_n 4 rfl rfl k
  have el : dot_S16777216x4_S4x8_S16777216x8_1_0_0_1_n_n.lhsIdx (ix2 r h) ((ValueIdx.contrEquiv1 dot_S16777216x4_S4x8_S16777216x8_1_0_0_1_n_n 4 rfl rfl).symm k) = ix2 r k := funext fun a => Fin.ext (by
    match a with
    | ⟨0, _⟩ => exact lhs_k7_0 _ _
    | ⟨1, _⟩ => exact (lhs_k7_1 _ _).trans hk)
  have er : dot_S16777216x4_S4x8_S16777216x8_1_0_0_1_n_n.rhsIdx (ix2 r h) ((ValueIdx.contrEquiv1 dot_S16777216x4_S4x8_S16777216x8_1_0_0_1_n_n 4 rfl rfl).symm k) = ix2 k h := funext fun a => Fin.ext (by
    match a with
    | ⟨0, _⟩ => exact (rhs_k7_0 _ _).trans hk
    | ⟨1, _⟩ => exact rhs_k7_1 _ _)
  rw [el, er]

theorem lhs_k12_0 (i : S16777216x1.Idx) (q : dot_S16777216x8_S8x1_S16777216x1_1_0_0_1_n_n.contr.Idx) :
    (dot_S16777216x8_S8x1_S16777216x1_1_0_0_1_n_n.lhsIdx i q 0).val = (i 0).val := by
  unfold DotDims.lhsIdx
  rw [dif_neg (show ¬(0 : Fin S16777216x8.rank) ∈ dot_S16777216x8_S8x1_S16777216x1_1_0_0_1_n_n.lhsBatch by decide), dif_pos (show (0 : Fin S16777216x8.rank) ∈ dot_S16777216x8_S8x1_S16777216x1_1_0_0_1_n_n.lhsNonContracting by decide)]
  rfl
theorem lhs_k12_1 (i : S16777216x1.Idx) (q : dot_S16777216x8_S8x1_S16777216x1_1_0_0_1_n_n.contr.Idx) :
    (dot_S16777216x8_S8x1_S16777216x1_1_0_0_1_n_n.lhsIdx i q 1).val = (q ⟨0, by decide⟩).val :=
  dot_S16777216x8_S8x1_S16777216x1_1_0_0_1_n_n.lhsIdx_val_of_single rfl i q
theorem rhs_k12_0 (i : S16777216x1.Idx) (q : dot_S16777216x8_S8x1_S16777216x1_1_0_0_1_n_n.contr.Idx) :
    (dot_S16777216x8_S8x1_S16777216x1_1_0_0_1_n_n.rhsIdx i q 0).val = (q ⟨0, by decide⟩).val :=
  dot_S16777216x8_S8x1_S16777216x1_1_0_0_1_n_n.rhsIdx_val_of_single rfl i q
theorem rhs_k12_1 (i : S16777216x1.Idx) (q : dot_S16777216x8_S8x1_S16777216x1_1_0_0_1_n_n.contr.Idx) :
    (dot_S16777216x8_S8x1_S16777216x1_1_0_0_1_n_n.rhsIdx i q 1).val = (i 1).val := by
  unfold DotDims.rhsIdx
  rw [dif_neg (show ¬(1 : Fin S8x1.rank) ∈ dot_S16777216x8_S8x1_S16777216x1_1_0_0_1_n_n.rhsBatch by decide), dif_pos (show (1 : Fin S8x1.rank) ∈ dot_S16777216x8_S8x1_S16777216x1_1_0_0_1_n_n.rhsNonContracting by decide)]
  rfl

/-- The second layer's product, at a row: the sum over the 8 hidden units. -/
theorem dot81_apply (y : FVec Ideal S16777216x8 .f32) (w : FVec Ideal S8x1 .f32) (r : Fin 16777216) (z : Fin 1) :
    Host.dotGeneral (F := Ideal) dot_S16777216x8_S8x1_S16777216x1_1_0_0_1_n_n none y w (ix2 r z) = ∑ h : Fin 8, y (ix2 r h) * w (ix2 h z) := by
  simp only [Host.dotGeneral]
  rw [Ideal.dotGeneral_apply, ← Equiv.sum_comp (ValueIdx.contrEquiv1 dot_S16777216x8_S8x1_S16777216x1_1_0_0_1_n_n 8 rfl rfl).symm]
  refine Finset.sum_congr rfl fun k _ => ?_
  have hk := ValueIdx.contrEquiv1_symm_val dot_S16777216x8_S8x1_S16777216x1_1_0_0_1_n_n 8 rfl rfl k
  have el : dot_S16777216x8_S8x1_S16777216x1_1_0_0_1_n_n.lhsIdx (ix2 r z) ((ValueIdx.contrEquiv1 dot_S16777216x8_S8x1_S16777216x1_1_0_0_1_n_n 8 rfl rfl).symm k) = ix2 r k := funext fun a => Fin.ext (by
    match a with
    | ⟨0, _⟩ => exact lhs_k12_0 _ _
    | ⟨1, _⟩ => exact (lhs_k12_1 _ _).trans hk)
  have er : dot_S16777216x8_S8x1_S16777216x1_1_0_0_1_n_n.rhsIdx (ix2 r z) ((ValueIdx.contrEquiv1 dot_S16777216x8_S8x1_S16777216x1_1_0_0_1_n_n 8 rfl rfl).symm k) = ix2 k z := funext fun a => Fin.ext (by
    match a with
    | ⟨0, _⟩ => exact (rhs_k12_0 _ _).trans hk
    | ⟨1, _⟩ => exact rhs_k12_1 _ _)
  rw [el, er]

/-- The first layer's bias vector, broadcast along the rows. -/
def k9 (b1 : FVec Ideal S8 .f32) : FVec Ideal S16777216x8 .f32 :=
  broadcastInDim S16777216x8 ![0, 1] bcast_S1x8_S16777216x8_0_1 (broadcastInDim S1x8 ![1] bcast_S8_S1x8_1 b1)

theorem k9_apply (b1 : FVec Ideal S8 .f32) (r : Fin 16777216) (h : Fin 8) : k9 b1 (ix2 r h) = b1 (ix1 h) := by
  unfold k9
  refine (broadcastInDim_apply _ bcast_S1x8_S16777216x8_0_1 _ (ix2 r h) (ix2 (0 : Fin 1) h) (fun a => match a with
    | ⟨0, _⟩ => by show 0 = if (1 : Nat) = 1 then 0 else r.val; rw [if_pos rfl]
    | ⟨1, _⟩ => by show h.val = if (8 : Nat) = 1 then 0 else h.val; rw [if_neg (by decide)])).trans ?_
  exact broadcastInDim_apply _ bcast_S8_S1x8_1 b1 (ix2 (0 : Fin 1) h) (ix1 h) (fun a => match a with
    | ⟨0, _⟩ => by show h.val = if (8 : Nat) = 1 then 0 else h.val; rw [if_neg (by decide)])

/-- The zero the rectifier compares with, broadcast to every entry. -/
def kz : FVec Ideal S16777216x8 .f32 :=
  broadcastInDim S16777216x8 ![] bcast_S_S16777216x8 (constant (F := Ideal) S_ .f32 0x00000000#32)

theorem kz_apply (r : Fin 16777216) (h : Fin 8) : kz (ix2 r h) = Ideal.ofBits .f32 0x00000000#32 := by
  unfold kz
  exact broadcastInDim_apply _ bcast_S_S16777216x8 _ (ix2 r h) ix0 (fun a => a.elim0)

/-- The second layer's bias, broadcast along the rows. -/
def k14 (b2 : FVec Ideal S1 .f32) : FVec Ideal S16777216x1 .f32 :=
  broadcastInDim S16777216x1 ![0, 1] bcast_S1x1_S16777216x1_0_1 (broadcastInDim S1x1 ![1] bcast_S1_S1x1_1 b2)

theorem k14_apply (b2 : FVec Ideal S1 .f32) (r : Fin 16777216) (z : Fin 1) : k14 b2 (ix2 r z) = b2 (ix1 (0 : Fin 1)) := by
  unfold k14
  refine (broadcastInDim_apply _ bcast_S1x1_S16777216x1_0_1 _ (ix2 r z) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else z.val; rw [if_pos rfl])).trans ?_
  exact broadcastInDim_apply _ bcast_S1_S1x1_1 b2 (ix2 (0 : Fin 1) (0 : Fin 1)) (ix1 (0 : Fin 1)) (fun a => match a with
    | ⟨0, _⟩ => by show 0 = if (1 : Nat) = 1 then 0 else 0; rw [if_pos rfl])

/-- The hidden layer after the rectifier, on the flattened rows. -/
def k11 (e : FVec Ideal S4096x4096x4 .f32) (w1 : FVec Ideal S4x8 .f32) (b1 : FVec Ideal S8 .f32) : FVec Ideal S16777216x8 .f32 :=
  maximumf (F := Ideal) (addf (F := Ideal) (Host.dotGeneral (F := Ideal) dot_S16777216x4_S4x8_S16777216x8_1_0_0_1_n_n none (k6 e) w1) (k9 b1)) kz

/-- The column of 4096² outputs. -/
def k15 (e : FVec Ideal S4096x4096x4 .f32) (w1 : FVec Ideal S4x8 .f32) (b1 : FVec Ideal S8 .f32) (w2 : FVec Ideal S8x1 .f32) (b2 : FVec Ideal S1 .f32) : FVec Ideal S16777216x1 .f32 :=
  addf (F := Ideal) (Host.dotGeneral (F := Ideal) dot_S16777216x8_S8x1_S16777216x1_1_0_0_1_n_n none (k11 e w1 b1) w2) (k14 b2)

/-- The column reshaped to a square: the kernel's per-edge bias. -/
def k16 (e : FVec Ideal S4096x4096x4 .f32) (w1 : FVec Ideal S4x8 .f32) (b1 : FVec Ideal S8 .f32) (w2 : FVec Ideal S8x1 .f32) (b2 : FVec Ideal S1 .f32) : FVec Ideal S4096x4096 .f32 :=
  shapeCast S4096x4096 (k15 e w1 b1 w2 b2) shapeCasts_S16777216x1_S4096x4096

theorem k16_apply (e : FVec Ideal S4096x4096x4 .f32) (w1 : FVec Ideal S4x8 .f32) (b1 : FVec Ideal S8 .f32) (w2 : FVec Ideal S8x1 .f32) (b2 : FVec Ideal S1 .f32) (a b : Fin 4096) :
    k16 e w1 b1 w2 b2 (ix2 a b) = k15 e w1 b1 w2 b2 (ix2 (row a b) (0 : Fin 1)) := by
  unfold k16
  generalize k15 e w1 b1 w2 b2 = y
  refine shapeCast_apply y shapeCasts_S16777216x1_S4096x4096 (ix2 a b) (ix2 (row a b) (0 : Fin 1)) ?_
  rw [Shape.rowMajor_val_two, Shape.rowMajor_val_two]
  show (4096 * a.val + b.val) * 1 + 0 = a.val * 4096 + b.val
  omega

end Bias

/-! ## The reference's stages at the same entries, and the two arrangements compared -/

section Core

open Cert.KernelIdeal Cert.KernelIdeal.Gen

theorem lidx2_at (a b : Fin 4096) (h : Fin 8) (k : Fin 4) : Cert.ReferenceIdeal.Read.lidx_main_v2 (ix3 a b h) k = ix3 a b k :=
  funext fun x => match x with | ⟨0, _⟩ => rfl | ⟨1, _⟩ => rfl | ⟨2, _⟩ => rfl
theorem ridx2_at (a b : Fin 4096) (h : Fin 8) (k : Fin 4) : Cert.ReferenceIdeal.Read.ridx_main_v2 (ix3 a b h) k = ix2 k h :=
  funext fun x => match x with | ⟨0, _⟩ => rfl | ⟨1, _⟩ => rfl
theorem idx43_at (a b : Fin 4096) (h : Fin 8) : Cert.ReferenceIdeal.Read.idx_main_v3 (Cert.ReferenceIdeal.Read.idx_main_v4 (ix3 a b h)) = ix1 h :=
  funext fun x => match x with | ⟨0, _⟩ => rfl
theorem lidx7_at (a b : Fin 4096) (z : Fin 1) (k : Fin 8) : Cert.ReferenceIdeal.Read.lidx_main_v7 (ix3 a b z) k = ix3 a b k :=
  funext fun x => match x with | ⟨0, _⟩ => rfl | ⟨1, _⟩ => rfl | ⟨2, _⟩ => rfl
theorem ridx7_at (a b : Fin 4096) (z : Fin 1) (k : Fin 8) : Cert.ReferenceIdeal.Read.ridx_main_v7 (ix3 a b z) k = ix2 k z :=
  funext fun x => match x with | ⟨0, _⟩ => rfl | ⟨1, _⟩ => rfl
theorem idx98_at (a b : Fin 4096) (z : Fin 1) : Cert.ReferenceIdeal.Read.idx_main_v8 (Cert.ReferenceIdeal.Read.idx_main_v9 (ix3 a b z)) = ix1 (0 : Fin 1) :=
  funext fun x => match x with | ⟨0, _⟩ => rfl
/-- Entry `(a, b)` of the square is entry `(a, b, 0)` of the three-dimensional column. -/
theorem idx11_at (a b : Fin 4096) : Cert.ReferenceIdeal.Read.idx_main_v11 (ix2 a b) = ix3 a b (0 : Fin 1) :=
  funext fun x => Fin.ext (by
    have ha := a.isLt
    have hb := b.isLt
    match x with
    | ⟨0, _⟩ => show (a.val * 4096 + b.val) / 4096 = a.val; omega
    | ⟨1, _⟩ => show (a.val * 4096 + b.val) / 1 % 4096 = b.val; omega
    | ⟨2, _⟩ => rfl)

/-- The reference's hidden layer at edge `(a, b)`, unit `h`. -/
theorem ref6_at (e : FVec Ideal S4096x4096x4 .f32) (w1 : FVec Ideal S4x8 .f32) (b1 : FVec Ideal S8 .f32) (a b : Fin 4096) (h : Fin 8) :
    Cert.ReferenceIdeal.Read.val_main_v6 (F := Ideal) e w1 b1 (ix3 a b h)
      = max ((∑ d : Fin 4, e (ix3 a b d) * w1 (ix2 d h)) + b1 (ix1 h)) (Ideal.ofBits .f32 0x00000000#32) := by
  rw [Cert.ReferenceIdeal.Read.val_main_v6_apply, Cert.ReferenceIdeal.Read.val_main_v5_apply, Cert.ReferenceIdeal.Read.val_main_v2_apply, Cert.ReferenceIdeal.Read.val_main_v4_apply, Cert.ReferenceIdeal.Read.val_main_v3_apply,
    Cert.ReferenceIdeal.Read.val_main_call0_v0_apply, Cert.ReferenceIdeal.Read.val_main_call0_cst_apply, idx43_at]
  simp only [lidx2_at, ridx2_at]
  rfl

/-- The kernel's hidden layer at row `4096 * a + b`, unit `h`. -/
theorem k11_at (e : FVec Ideal S4096x4096x4 .f32) (w1 : FVec Ideal S4x8 .f32) (b1 : FVec Ideal S8 .f32) (a b : Fin 4096) (h : Fin 8) :
    k11 e w1 b1 (ix2 (row a b) h)
      = max ((∑ d : Fin 4, e (ix3 a b d) * w1 (ix2 d h)) + b1 (ix1 h)) (Ideal.ofBits .f32 0x00000000#32) := by
  unfold k11
  rw [maximumf_apply, addf_apply, dot48_apply, k9_apply, kz_apply]
  simp only [k6_apply]

/-- The two hidden layers agree entry by entry. -/
theorem k11_eq_ref6 (e : FVec Ideal S4096x4096x4 .f32) (w1 : FVec Ideal S4x8 .f32) (b1 : FVec Ideal S8 .f32) (a b : Fin 4096) (h : Fin 8) :
    k11 e w1 b1 (ix2 (row a b) h) = Cert.ReferenceIdeal.Read.val_main_v6 (F := Ideal) e w1 b1 (ix3 a b h) :=
  (k11_at e w1 b1 a b h).trans (ref6_at e w1 b1 a b h).symm

/-- The kernel's square of per-edge biases is the reference's. -/
theorem bias_core (e : FVec Ideal S4096x4096x4 .f32) (w1 : FVec Ideal S4x8 .f32) (b1 : FVec Ideal S8 .f32) (w2 : FVec Ideal S8x1 .f32) (b2 : FVec Ideal S1 .f32) :
    k16 e w1 b1 w2 b2 = Cert.ReferenceIdeal.Read.val_main_v11 (F := Ideal) e w1 b1 w2 b2 := by
  funext i
  obtain ⟨a, b, rfl⟩ : ∃ (a b : Fin 4096), i = ix2 a b := ⟨i 0, i 1, eq_ix2 i⟩
  rw [k16_apply, Cert.ReferenceIdeal.Read.val_main_v11_apply, idx11_at, Cert.ReferenceIdeal.Read.val_main_v10_apply, Cert.ReferenceIdeal.Read.val_main_v7_apply, Cert.ReferenceIdeal.Read.val_main_v9_apply,
    Cert.ReferenceIdeal.Read.val_main_v8_apply, idx98_at]
  unfold k15
  rw [addf_apply, dot81_apply, k14_apply]
  simp only [lidx7_at, ridx7_at, k11_eq_ref6]
  rfl

end Core

/-- The per-edge bias. -/
theorem V_bias (c : Dev Cert.KernelIdeal.nD) :
    (Cert.KernelIdeal.Gen.V m c Cert.KernelIdeal.main_v16 : Cert.KernelIdeal.S4096x4096.Idx → EReal)
      = Cert.ReferenceIdeal.Read.val_main_v11 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  refine Eq.trans (?_ : _ = k16 (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (bias_core _ _ _ _ _)
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rfl

/-- The first bias vector of the perceptron, as one row. -/
theorem V_b1 (c : Dev Cert.KernelIdeal.nD) (h : Fin 128) :
    (Cert.KernelIdeal.Gen.V m c Cert.KernelIdeal.main_v17 : Cert.KernelIdeal.S1x128.Idx → EReal) (ix2 (0 : Fin 1) h)
      = ((m ((c.tc : Thread Cert.KernelIdeal.nD Cert.KernelIdeal.τ).loc Cert.KernelIdeal.main_arg11)) : Cert.KernelIdeal.S128.Idx → EReal) (ix1 h) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results
  show shapeCast Cert.KernelIdeal.S1x128 (m (c, Proc.tc.devRef Cert.KernelIdeal.main_arg11)) Cert.KernelIdeal.Gen.shapeCasts_S128_S1x128 (ix2 (0 : Fin 1) h) = _
  refine (shapeCast_apply _ _ (ix2 (0 : Fin 1) h) (ix1 h) ?_).trans rfl
  rw [Shape.rowMajor_val_one, Shape.rowMajor_val_two]
  show h.val = 0 * 128 + h.val
  omega

/-- The second bias vector of the perceptron, as one row. -/
theorem V_b2 (c : Dev Cert.KernelIdeal.nD) (h : Fin 128) :
    (Cert.KernelIdeal.Gen.V m c Cert.KernelIdeal.main_v18 : Cert.KernelIdeal.S1x128.Idx → EReal) (ix2 (0 : Fin 1) h)
      = ((m ((c.tc : Thread Cert.KernelIdeal.nD Cert.KernelIdeal.τ).loc Cert.KernelIdeal.main_arg13)) : Cert.KernelIdeal.S128.Idx → EReal) (ix1 h) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results
  show shapeCast Cert.KernelIdeal.S1x128 (m (c, Proc.tc.devRef Cert.KernelIdeal.main_arg13)) Cert.KernelIdeal.Gen.shapeCasts_S128_S1x128 (ix2 (0 : Fin 1) h) = _
  refine (shapeCast_apply _ _ (ix2 (0 : Fin 1) h) (ix1 h) ?_).trans rfl
  rw [Shape.rowMajor_val_one, Shape.rowMajor_val_two]
  show h.val = 0 * 128 + h.val
  omega

end Cert.HostVals

end
-- ==== Proof.RefValue.lean ====
/-
  The reference program's result, stage by stage, is the specification applied to its own intermediate arrays:
  the keys `x W_k`, the queries `x W_q`, the per-edge bias, the values `x W_v + b_v`, the perceptron's weights.

  Index by index: the scores are the inner products divided by `√64 = 8`, which is the product with `1/8`; the
  row maximum is the fold of `max` from `-∞`; the weights are `exp (score - max)` over their row sum from `0`; the
  attended vector is the weights' product with the values; the rest is the residual perceptron, row by row.
-/
import proofs.«407300_j9534827397806_3_alg».proof.Proof.Gen.ReferenceIdeal.Read
import proofs.«407300_j9534827397806_3_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read

variable (x0 : (⟨S4096x128, .f32⟩ : BufTy).Contents (Elt Ideal)) (x1 : (⟨S4096x4096x4, .f32⟩ : BufTy).Contents (Elt Ideal)) (x2 x3 : (⟨S128x64, .f32⟩ : BufTy).Contents (Elt Ideal)) (x4 : (⟨S128x128, .f32⟩ : BufTy).Contents (Elt Ideal)) (x5 : (⟨S128, .f32⟩ : BufTy).Contents (Elt Ideal)) (x6 : (⟨S4x8, .f32⟩ : BufTy).Contents (Elt Ideal)) (x7 : (⟨S8, .f32⟩ : BufTy).Contents (Elt Ideal)) (x8 : (⟨S8x1, .f32⟩ : BufTy).Contents (Elt Ideal)) (x9 : (⟨S1, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))

/-! ## The composed index functions of the stages, at an index given by its coordinates -/

/-- The score product reads the keys' row `R`. -/
theorem lidx13 (R j : Fin 4096) (k : Fin 64) : lidx_main_v13 (ix2 R j) k = ix2 R k :=
  funext fun a => Fin.ext (by match a with | ⟨0, _⟩ => rfl | ⟨1, _⟩ => rfl)

/-- Through the transpose the score product reads the queries' row `j`. -/
theorem ridx13 (R j : Fin 4096) (k : Fin 64) : idx_main_v12 (ridx_main_v13 (ix2 R j) k) = ix2 j k :=
  funext fun a => Fin.ext (by match a with | ⟨0, _⟩ => rfl | ⟨1, _⟩ => rfl)

/-! ## The scale -/

/-- Dividing by `√64` is multiplying by the float `0.125`. -/
theorem div_sqrt_sixtyfour (s : EReal) :
    Ideal.div s (Ideal.sqrt (Ideal.ofBits .f32 0x42800000#32)) = s * Ideal.ofBits .f32 0x3E000000#32 := by
  rw [Cert.Attn.sqrt_sixtyfour, Ideal.div_coe (by norm_num : (8 : ℝ) ≠ 0), Cert.Attn.ofBits_eighth]

/-! ## The scores -/

/-- The scores array at `(R, j)` is the specification's score. -/
theorem score_eq (R j : Fin 4096) :
    val_main_v17 (F := Ideal) x0 x1 x2 x3 x6 x7 x8 x9 (ix2 R j)
      = Cert.Attn.score (val_main_v0 (F := Ideal) x0 x3) (val_main_v1 (F := Ideal) x0 x2)
          (val_main_v11 (F := Ideal) x1 x6 x7 x8 x9) R j := by
  rw [val_main_v17_apply, val_main_v16_apply, val_main_v13_apply, val_main_v15_apply, val_main_v14_apply,
    val_main_cst_apply]
  simp only [val_main_v12_apply, lidx13, ridx13, Ideal.addf_def, Ideal.hostDivf_def, Ideal.hostUnary_sqrt_def,
    Ideal.ofBits_def]
  rw [div_sqrt_sixtyfour]
  rfl

/-! ## The row maximum -/

/-- Row `R` with the column `k` put back on the reduced axis is the index `(R, k)`. -/
theorem lift_row (h : S4096x4096.Reduces [1] S4096) (R : Fin 4096) (k : Fin (S4096x4096.size 1)) :
    h.lift (ix1 R) k = ix2 R (⟨k.val, k.isLt⟩ : Fin 4096) :=
  funext fun c => Fin.ext (by match c with | ⟨0, _⟩ => rfl | ⟨1, _⟩ => rfl)

/-- The maximum of `-∞` and the reduce of the scores from `-∞` over the columns is the specification's row maximum. -/
theorem rowMax_eq (R : Fin 4096) :
    val_main_v20 (F := Ideal) x0 x1 x2 x3 x6 x7 x8 x9 (ix1 R)
      = Cert.Attn.rowMax (val_main_v0 (F := Ideal) x0 x3) (val_main_v1 (F := Ideal) x0 x2)
          (val_main_v11 (F := Ideal) x1 x6 x7 x8 x9) R := by
  have hred : S4096x4096.Reduces [1] S4096 := by decide
  have hf : (val_main_v17 (F := Ideal) x0 x1 x2 x3 x6 x7 x8 x9 ∘ hred.lift (ix1 R))
      = fun k : Fin 4096 => Cert.Attn.score (val_main_v0 (F := Ideal) x0 x3) (val_main_v1 (F := Ideal) x0 x2)
          (val_main_v11 (F := Ideal) x1 x6 x7 x8 x9) R k :=
    funext fun k => (congrArg (val_main_v17 (F := Ideal) x0 x1 x2 x3 x6 x7 x8 x9) (lift_row hred R k)).trans
      (score_eq x0 x1 x2 x3 x6 x7 x8 x9 R ⟨k.val, k.isLt⟩)
  rw [val_main_v20_apply, val_main_v19_apply, val_main_cst_1_apply]
  unfold val_main_v18 Cert.Attn.rowMax
  rw [Host.reduce_eq_fold_single FloatOps.maximumf _ _ Gen.reducesTo_S4096x4096_S4096_d1 hred Gen.h_S_, val_main_cst_0_apply]
  simp only [Ideal.maximumf_def, Ideal.ofBits_def, Cert.Attn.ofBits_neg_inf]
  refine congrArg (max (⊥ : EReal)) ?_
  exact congrArg (fun f => Finset.fold max (⊥ : EReal) f (Finset.univ : Finset (Fin 4096))) hf

/-! ## The softmax weights -/

/-- The broadcast of the row maxima over the columns reads row `R`'s. -/
theorem idx_rowmax (R j : Fin 4096) : idx_main_v21 (idx_main_v22 (ix2 R j)) = ix1 R :=
  funext fun a => Fin.ext (by match a with | ⟨0, _⟩ => rfl)

/-- The exponentials array at `(R, j)`. -/
theorem exp_eq (R j : Fin 4096) :
    val_main_v24 (F := Ideal) x0 x1 x2 x3 x6 x7 x8 x9 (ix2 R j)
      = Ideal.exp (Cert.Attn.score (val_main_v0 (F := Ideal) x0 x3) (val_main_v1 (F := Ideal) x0 x2)
            (val_main_v11 (F := Ideal) x1 x6 x7 x8 x9) R j
          - Cert.Attn.rowMax (val_main_v0 (F := Ideal) x0 x3) (val_main_v1 (F := Ideal) x0 x2)
            (val_main_v11 (F := Ideal) x1 x6 x7 x8 x9) R) := by
  rw [val_main_v24_apply, val_main_v23_apply, val_main_v22_apply, val_main_v21_apply, idx_rowmax, score_eq, rowMax_eq]
  simp only [Ideal.hostUnary_exp_def, Ideal.subf_def]

/-- The row sum reads row `R`'s columns. -/
theorem idx25 (R k : Fin 4096) : idx_main_v25 (ix1 R) k = ix2 R k :=
  funext fun a => Fin.ext (by match a with | ⟨0, _⟩ => rfl | ⟨1, _⟩ => rfl)

/-- The denominators array at `R`: the row sum of the exponentials, from `0`. -/
theorem denom_eq (R : Fin 4096) :
    val_main_v25 (F := Ideal) x0 x1 x2 x3 x6 x7 x8 x9 (ix1 R)
      = 0 + ∑ j' : Fin 4096, Ideal.exp (Cert.Attn.score (val_main_v0 (F := Ideal) x0 x3) (val_main_v1 (F := Ideal) x0 x2)
            (val_main_v11 (F := Ideal) x1 x6 x7 x8 x9) R j'
          - Cert.Attn.rowMax (val_main_v0 (F := Ideal) x0 x3) (val_main_v1 (F := Ideal) x0 x2)
            (val_main_v11 (F := Ideal) x1 x6 x7 x8 x9) R) := by
  rw [val_main_v25_apply, val_main_cst_2_apply]
  simp only [idx25, exp_eq, Ideal.ofBits_def, Ideal.ofBits_zero_f32]

/-- The broadcast of the denominators over the columns reads row `R`'s. -/
theorem idx_denom (R j : Fin 4096) : idx_main_v26 (idx_main_v27 (ix2 R j)) = ix1 R :=
  funext fun a => Fin.ext (by match a with | ⟨0, _⟩ => rfl)

/-- The weights array at `(R, j)`. -/
theorem weight_eq (R j : Fin 4096) :
    val_main_v28 (F := Ideal) x0 x1 x2 x3 x6 x7 x8 x9 (ix2 R j)
      = Ideal.div (Ideal.exp (Cert.Attn.score (val_main_v0 (F := Ideal) x0 x3) (val_main_v1 (F := Ideal) x0 x2)
            (val_main_v11 (F := Ideal) x1 x6 x7 x8 x9) R j
          - Cert.Attn.rowMax (val_main_v0 (F := Ideal) x0 x3) (val_main_v1 (F := Ideal) x0 x2)
            (val_main_v11 (F := Ideal) x1 x6 x7 x8 x9) R))
        (0 + ∑ j' : Fin 4096, Ideal.exp (Cert.Attn.score (val_main_v0 (F := Ideal) x0 x3) (val_main_v1 (F := Ideal) x0 x2)
            (val_main_v11 (F := Ideal) x1 x6 x7 x8 x9) R j'
          - Cert.Attn.rowMax (val_main_v0 (F := Ideal) x0 x3) (val_main_v1 (F := Ideal) x0 x2)
            (val_main_v11 (F := Ideal) x1 x6 x7 x8 x9) R)) := by
  rw [val_main_v28_apply, val_main_v27_apply, val_main_v26_apply, idx_denom, exp_eq, denom_eq]
  simp only [Ideal.hostDivf_def]

/-! ## The attended vector and the residual -/

/-- The attention product reads the weights' row `R`. -/
theorem lidx33 (R : Fin 4096) (d : Fin 128) (k : Fin 4096) : lidx_main_v33 (ix2 R d) k = ix2 R k :=
  funext fun a => Fin.ext (by match a with | ⟨0, _⟩ => rfl | ⟨1, _⟩ => rfl)

/-- The attention product reads the values' column `d`. -/
theorem ridx33 (R : Fin 4096) (d : Fin 128) (k : Fin 4096) : ridx_main_v33 (ix2 R d) k = ix2 k d :=
  funext fun a => Fin.ext (by match a with | ⟨0, _⟩ => rfl | ⟨1, _⟩ => rfl)

/-- The attention product at `(R, d)` is the specification's attended vector. -/
theorem attended_eq (R : Fin 4096) (d : Fin 128) :
    val_main_v33 (F := Ideal) x0 x1 x2 x3 x4 x5 x6 x7 x8 x9 (ix2 R d)
      = Cert.Attn.attended (val_main_v0 (F := Ideal) x0 x3) (val_main_v1 (F := Ideal) x0 x2)
          (val_main_v11 (F := Ideal) x1 x6 x7 x8 x9) (val_main_v32 (F := Ideal) x0 x4 x5) R d := by
  rw [val_main_v33_apply]
  simp only [lidx33, ridx33, weight_eq]
  rfl

/-- The residual array at `(R, e)`. -/
theorem resid_eq (R : Fin 4096) (e : Fin 128) :
    val_main_v34 (F := Ideal) x0 x1 x2 x3 x4 x5 x6 x7 x8 x9 (ix2 R e)
      = x0 (ix2 R e) + Cert.Attn.attended (val_main_v0 (F := Ideal) x0 x3) (val_main_v1 (F := Ideal) x0 x2)
          (val_main_v11 (F := Ideal) x1 x6 x7 x8 x9) (val_main_v32 (F := Ideal) x0 x4 x5) R e := by
  rw [val_main_v34_apply, attended_eq]
  simp only [Ideal.addf_def]

/-! ## The perceptron -/

/-- A perceptron product reads its left operand's row `R`. -/
theorem lidx35 (R : Fin 4096) (h k : Fin 128) : lidx_main_v35 (ix2 R h) k = ix2 R k :=
  funext fun a => Fin.ext (by match a with | ⟨0, _⟩ => rfl | ⟨1, _⟩ => rfl)

/-- A perceptron product reads its weights' column `h`. -/
theorem ridx35 (R : Fin 4096) (h k : Fin 128) : ridx_main_v35 (ix2 R h) k = ix2 k h :=
  funext fun a => Fin.ext (by match a with | ⟨0, _⟩ => rfl | ⟨1, _⟩ => rfl)

/-- The second product reads its left operand's row `R`. -/
theorem lidx40 (R : Fin 4096) (d k : Fin 128) : lidx_main_v40 (ix2 R d) k = ix2 R k :=
  funext fun a => Fin.ext (by match a with | ⟨0, _⟩ => rfl | ⟨1, _⟩ => rfl)

/-- The second product reads its weights' column `d`. -/
theorem ridx40 (R : Fin 4096) (d k : Fin 128) : ridx_main_v40 (ix2 R d) k = ix2 k d :=
  funext fun a => Fin.ext (by match a with | ⟨0, _⟩ => rfl | ⟨1, _⟩ => rfl)

/-- The first bias, broadcast over the rows, reads entry `h`. -/
theorem idx_bias1 (R : Fin 4096) (h : Fin 128) : idx_main_v36 (idx_main_v37 (ix2 R h)) = ix1 h :=
  funext fun a => Fin.ext (by match a with | ⟨0, _⟩ => rfl)

/-- The second bias, broadcast over the rows, reads entry `d`. -/
theorem idx_bias2 (R : Fin 4096) (d : Fin 128) : idx_main_v41 (idx_main_v42 (ix2 R d)) = ix1 d :=
  funext fun a => Fin.ext (by match a with | ⟨0, _⟩ => rfl)

/-- The hidden layer at `(R, h)`: the rectified affine image of the residual row. -/
theorem hidden_eq (R : Fin 4096) (h : Fin 128) :
    val_main_v39 (F := Ideal) x0 x1 x2 x3 x4 x5 x6 x7 x8 x9 x10 x11 (ix2 R h)
      = max ((∑ e : Fin 128, (x0 (ix2 R e) + Cert.Attn.attended (val_main_v0 (F := Ideal) x0 x3) (val_main_v1 (F := Ideal) x0 x2)
          (val_main_v11 (F := Ideal) x1 x6 x7 x8 x9) (val_main_v32 (F := Ideal) x0 x4 x5) R e) * x10 (ix2 e h)) + x11 (ix1 h)) 0 := by
  rw [val_main_v39_apply, val_main_v38_apply, val_main_v35_apply, val_main_v37_apply, val_main_v36_apply, idx_bias1,
    val_main_call1_v0_apply, val_main_call1_cst_apply]
  simp only [lidx35, ridx35, resid_eq, Ideal.addf_def, Ideal.maximumf_def, Ideal.ofBits_def, Ideal.ofBits_zero_f32]

/-- The reference's result array is the specification of its keys, queries, bias and values. -/
theorem ref_is_spec (x0 : (⟨S4096x128, .f32⟩ : BufTy).Contents (Elt Ideal)) (x1 : (⟨S4096x4096x4, .f32⟩ : BufTy).Contents (Elt Ideal)) (x2 x3 : (⟨S128x64, .f32⟩ : BufTy).Contents (Elt Ideal)) (x4 : (⟨S128x128, .f32⟩ : BufTy).Contents (Elt Ideal)) (x5 : (⟨S128, .f32⟩ : BufTy).Contents (Elt Ideal)) (x6 : (⟨S4x8, .f32⟩ : BufTy).Contents (Elt Ideal)) (x7 : (⟨S8, .f32⟩ : BufTy).Contents (Elt Ideal)) (x8 : (⟨S8x1, .f32⟩ : BufTy).Contents (Elt Ideal)) (x9 : (⟨S1, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    val_main_v44 (F := Ideal) x0 x1 x2 x3 x4 x5 x6 x7 x8 x9 x10 x11 x12 x13
      = Cert.Attn.attnSpec x0 (val_main_v0 (F := Ideal) x0 x3) (val_main_v1 (F := Ideal) x0 x2)
          (val_main_v11 (F := Ideal) x1 x6 x7 x8 x9) (val_main_v32 (F := Ideal) x0 x4 x5)
          x10 (fun h => x11 (ix1 h)) x12 (fun h => x13 (ix1 h)) := by
  funext i
  obtain ⟨R, d, rfl⟩ : ∃ (R : Fin 4096) (d : Fin 128), i = ix2 R d := ⟨i 0, i 1, eq_ix2 i⟩
  rw [val_main_v44_apply, val_main_v43_apply, val_main_v40_apply, val_main_v42_apply, val_main_v41_apply, idx_bias2,
    resid_eq]
  simp only [lidx40, ridx40, hidden_eq, Ideal.addf_def]
  rfl

end Cert.ReferenceIdeal.RefValue

end
-- ==== Proof.RefReal.lean ====
/-
  With real (finite) inputs every score and every value entry is a real number: the keys, queries and values are
  finite sums of products of reals, the per-edge bias a finite sum of products of a maximum of reals, and the score a
  sum and a product of those.
-/
import proofs.«407300_j9534827397806_3_alg».proof.Proof.Gen.ReferenceIdeal.Read
import proofs.«407300_j9534827397806_3_alg».proof.Proof.Spec
import Idealize.ShloMosaic.PureOps.Ideal.Laws
import Idealize.ShloMosaic.Lib.ValueIdx
import Idealize.ShloMosaic.Lib.Pipeline.Value

noncomputable section

namespace Cert.ReferenceIdeal.RefReal

open Idealize.ShloMosaic Idealize.ShloMosaic.ValueIdx Cert.ReferenceIdeal Cert.ReferenceIdeal.Read

/-! ### The reals inside the extended reals are closed under the operations the stages use -/

/-- The sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The larger of two reals is a real: the embedding of the reals is monotone, so it commutes with `max`. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (EReal.coe_strictMono.monotone.map_max).symm⟩

/-- Zero is a real. -/
theorem real_zero : ∃ r : ℝ, (0 : EReal) = (r : EReal) := ⟨0, EReal.coe_zero.symm⟩

/-- A finite sum of reals is a real, by induction on the index set. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

/-- A sum over a whole finite type of reals is a real. -/
theorem real_sum_univ {ι : Type} [Fintype ι] (f : ι → EReal) (h : ∀ i, ∃ r : ℝ, f i = (r : EReal)) :
    ∃ r : ℝ, ∑ i, f i = (r : EReal) :=
  real_sum Finset.univ f fun i _ => h i

/-! ### The stages of the reference, read at an index -/

section stages

variable (x0 : (⟨S4096x128, .f32⟩ : BufTy).Contents (Elt Ideal)) (x1 : (⟨S4096x4096x4, .f32⟩ : BufTy).Contents (Elt Ideal))
  (x2 x3 : (⟨S128x64, .f32⟩ : BufTy).Contents (Elt Ideal)) (x4 : (⟨S128x128, .f32⟩ : BufTy).Contents (Elt Ideal))
  (x5 : (⟨S128, .f32⟩ : BufTy).Contents (Elt Ideal)) (x6 : (⟨S4x8, .f32⟩ : BufTy).Contents (Elt Ideal))
  (x7 : (⟨S8, .f32⟩ : BufTy).Contents (Elt Ideal)) (x8 : (⟨S8x1, .f32⟩ : BufTy).Contents (Elt Ideal))
  (x9 : (⟨S1, .f32⟩ : BufTy).Contents (Elt Ideal))

/-- A key entry is a sum of 128 products of an input entry with a weight. -/
theorem key_real (h0 : ∀ i, ∃ r : ℝ, x0 i = (r : EReal)) (h3 : ∀ i, ∃ r : ℝ, x3 i = (r : EReal)) (i : S4096x64.Idx) :
    ∃ r : ℝ, val_main_v0 (F := Ideal) x0 x3 i = (r : EReal) := by
  rw [val_main_v0_apply]
  exact real_sum_univ _ fun k => real_mul (h0 _) (h3 _)

/-- A query entry is a sum of 128 products of an input entry with a weight. -/
theorem query_real (h0 : ∀ i, ∃ r : ℝ, x0 i = (r : EReal)) (h2 : ∀ i, ∃ r : ℝ, x2 i = (r : EReal)) (i : S4096x64.Idx) :
    ∃ r : ℝ, val_main_v1 (F := Ideal) x0 x2 i = (r : EReal) := by
  rw [val_main_v1_apply]
  exact real_sum_univ _ fun k => real_mul (h0 _) (h2 _)

/-- The hidden layer of the bias before its threshold: four products summed, plus the layer's offset. -/
theorem hidden_real (h1 : ∀ i, ∃ r : ℝ, x1 i = (r : EReal)) (h6 : ∀ i, ∃ r : ℝ, x6 i = (r : EReal))
    (h7 : ∀ i, ∃ r : ℝ, x7 i = (r : EReal)) (i : S4096x4096x8.Idx) :
    ∃ r : ℝ, val_main_v5 (F := Ideal) x1 x6 x7 i = (r : EReal) := by
  rw [val_main_v5_apply, Ideal.addf_def, val_main_v2_apply, val_main_v4_apply, val_main_v3_apply]
  exact real_add (real_sum_univ _ fun k => real_mul (h1 _) (h6 _)) (h7 _)

/-- The hidden layer after its threshold at zero. -/
theorem relu_real (h1 : ∀ i, ∃ r : ℝ, x1 i = (r : EReal)) (h6 : ∀ i, ∃ r : ℝ, x6 i = (r : EReal))
    (h7 : ∀ i, ∃ r : ℝ, x7 i = (r : EReal)) (i : S4096x4096x8.Idx) :
    ∃ r : ℝ, val_main_v6 (F := Ideal) x1 x6 x7 i = (r : EReal) := by
  rw [val_main_v6_apply, Ideal.maximumf_def, val_main_call0_v0_apply, val_main_call0_cst_apply, Ideal.ofBits_def,
    Ideal.ofBits_zero_f32]
  exact real_max (hidden_real x1 x6 x7 h1 h6 h7 i) real_zero

/-- The bias of an edge: eight products of a thresholded hidden entry with a weight, summed, plus the offset. -/
theorem bias_real (h1 : ∀ i, ∃ r : ℝ, x1 i = (r : EReal)) (h6 : ∀ i, ∃ r : ℝ, x6 i = (r : EReal))
    (h7 : ∀ i, ∃ r : ℝ, x7 i = (r : EReal)) (h8 : ∀ i, ∃ r : ℝ, x8 i = (r : EReal))
    (h9 : ∀ i, ∃ r : ℝ, x9 i = (r : EReal)) (i : S4096x4096.Idx) :
    ∃ r : ℝ, val_main_v11 (F := Ideal) x1 x6 x7 x8 x9 i = (r : EReal) := by
  rw [val_main_v11_apply, val_main_v10_apply, Ideal.addf_def, val_main_v7_apply, val_main_v9_apply, val_main_v8_apply]
  exact real_add (real_sum_univ _ fun k => real_mul (relu_real x1 x6 x7 h1 h6 h7 _) (h8 _)) (h9 _)

end stages

/-- Every score is real when the inputs it is computed from are. -/
theorem score_real (x0 : (⟨S4096x128, .f32⟩ : BufTy).Contents (Elt Ideal)) (x1 : (⟨S4096x4096x4, .f32⟩ : BufTy).Contents (Elt Ideal)) (x2 x3 : (⟨S128x64, .f32⟩ : BufTy).Contents (Elt Ideal)) (x4 : (⟨S128x128, .f32⟩ : BufTy).Contents (Elt Ideal)) (x5 : (⟨S128, .f32⟩ : BufTy).Contents (Elt Ideal)) (x6 : (⟨S4x8, .f32⟩ : BufTy).Contents (Elt Ideal)) (x7 : (⟨S8, .f32⟩ : BufTy).Contents (Elt Ideal)) (x8 : (⟨S8x1, .f32⟩ : BufTy).Contents (Elt Ideal)) (x9 : (⟨S1, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (R j : Fin 4096) :
    ∃ r : ℝ, Cert.Attn.score (val_main_v0 (F := Ideal) x0 x3) (val_main_v1 (F := Ideal) x0 x2)
        (val_main_v11 (F := Ideal) x1 x6 x7 x8 x9) R j = (r : EReal) := by
  unfold Cert.Attn.score
  rw [Cert.Attn.ofBits_eighth]
  exact real_add
    (real_mul (real_sum_univ _ fun e => real_mul (key_real x0 x3 h0 h3 _) (query_real x0 x2 h0 h2 _)) ⟨1 / 8, rfl⟩)
    (bias_real x1 x6 x7 x8 x9 h1 h6 h7 h8 h9 _)

/-- Every value entry is real when the inputs it is computed from are. -/
theorem value_real (x0 : (⟨S4096x128, .f32⟩ : BufTy).Contents (Elt Ideal)) (x1 : (⟨S4096x4096x4, .f32⟩ : BufTy).Contents (Elt Ideal)) (x2 x3 : (⟨S128x64, .f32⟩ : BufTy).Contents (Elt Ideal)) (x4 : (⟨S128x128, .f32⟩ : BufTy).Contents (Elt Ideal)) (x5 : (⟨S128, .f32⟩ : BufTy).Contents (Elt Ideal)) (x6 : (⟨S4x8, .f32⟩ : BufTy).Contents (Elt Ideal)) (x7 : (⟨S8, .f32⟩ : BufTy).Contents (Elt Ideal)) (x8 : (⟨S8x1, .f32⟩ : BufTy).Contents (Elt Ideal)) (x9 : (⟨S1, .f32⟩ : BufTy).Contents (Elt Ideal))
    (h0 : ∀ i, ∃ r : ℝ, x0 i = (r : EReal)) (h4 : ∀ i, ∃ r : ℝ, x4 i = (r : EReal)) (h5 : ∀ i, ∃ r : ℝ, x5 i = (r : EReal)) (i : S4096x128.Idx) :
    ∃ r : ℝ, val_main_v32 (F := Ideal) x0 x4 x5 i = (r : EReal) := by
  rw [val_main_v32_apply, Ideal.addf_def, val_main_v29_apply, val_main_v31_apply, val_main_v30_apply]
  exact real_add (real_sum_univ _ fun k => real_mul (h0 _) (h4 _)) (h5 _)

end Cert.ReferenceIdeal.RefReal

end
-- ==== Proof.PreReal.lean ====
/-
  The precondition says every float input is finite: for each input array, every entry's absolute value is below
  `+∞`.  An extended real whose absolute value is below `+∞` is neither infinity, hence a real number.
-/
import proofs.«407300_j9534827397806_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreReal

open Idealize.ShloMosaic Idealize.ShloMosaic.ValueIdx Cert.Pre_finite_inputs

/-- The shape of a scalar has exactly one index. -/
instance : Subsingleton S_.Idx := ⟨fun a b => funext fun d => d.elim0⟩

/-- The bit pattern `0x7F800000` (sign 0, exponent all ones, significand 0) denotes `+∞`. -/
theorem ofBits_inf : Ideal.ofBits .f32 0x7F800000#32 = (⊤ : EReal) := by
  simp [Ideal.ofBits, Ideal.ieee]

/-- An extended real `x` with `max x (-x) < +∞` is a real number: for `x = ⊥` the maximum is `-⊥ = ⊤`, for `x = ⊤`
    it is `⊤`, and `⊤ < ⊤` is false. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An entry of an all-true comparison is real: if the conjunction over all entries of `|a i| < +∞` is true, every
    entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ix0 = 1#1) (i : s.Idx) : ∃ r : ℝ, a i = (r : EReal) :=
  real_of_abs_lt (a i) (Host.reduce_andi_all _ _ hr hu ix0 e i)

/-- If the printed finiteness predicate is all ones, every entry of the first ten input arrays (the ones the scores
    and the values are computed from) is a real number. -/
theorem real_of_fn [hP : Cert.Pre_finite_inputs.Facts] (a0 : FVec Ideal S4096x128 .f32) (a1 : FVec Ideal S4096x4096x4 .f32) (a2 : FVec Ideal S128x64 .f32) (a3 : FVec Ideal S128x64 .f32) (a4 : FVec Ideal S128x128 .f32) (a5 : FVec Ideal S128 .f32) (a6 : FVec Ideal S4x8 .f32) (a7 : FVec Ideal S8 .f32) (a8 : FVec Ideal S8x1 .f32) (a9 : FVec Ideal S1 .f32) (a10 : FVec Ideal S128x128 .f32) (a11 : FVec Ideal S128 .f32) (a12 : FVec Ideal S128x128 .f32) (a13 : FVec Ideal S128 .f32)
    (h : Cert.Pre_finite_inputs.fn (F := Ideal) a0 a1 a2 a3 a4 a5 a6 a7 a8 a9 a10 a11 a12 a13 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal)) := by
  have h0 := congrFun h ix0
  dsimp only [fn, fn_part1, fn_part2, fn_part3, fn_part4] at h0
  simp only [andi, IntOp.andi_eq_one] at h0
  obtain ⟨⟨⟨⟨⟨⟨⟨⟨⟨⟨⟨⟨⟨e0, e1⟩, e2⟩, e3⟩, e4⟩, e5⟩, e6⟩, e7⟩, e8⟩, e9⟩, _⟩, _⟩, _⟩, _⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9⟩

end Cert.PreReal

end
-- ==== Proof.Bridge.lean ====
/-
  Both programs' results as ONE function of the kernel's argument arrays.

  The kernel's result array is the specification of its operand arrays (the induction over the grid), and those
  operand arrays are the reference's stages of the same arguments; the reference's result is the specification of
  its own stages; with agreeing arguments the two are the same term.  The finiteness of the inputs enters once: it
  makes every score and every value entry a real number, which the online-softmax induction needs.
-/
import proofs.«407300_j9534827397806_3_alg».proof.Defs
import proofs.«407300_j9534827397806_3_alg».proof.Proof.Invariant
import proofs.«407300_j9534827397806_3_alg».proof.Proof.HostVals
import proofs.«407300_j9534827397806_3_alg».proof.Proof.RefValue
import proofs.«407300_j9534827397806_3_alg».proof.Proof.RefReal
import proofs.«407300_j9534827397806_3_alg».proof.Proof.PreReal

set_option maxRecDepth 16384

noncomputable section

namespace Cert.Bridge

open Idealize.ShloMosaic Idealize.ShloMosaic.TcCoe Idealize.ShloMosaic.ValueIdx Idealize.SL.Sem
open Cert.KernelIdeal.Blocks

variable (m : (ℓ : Loc Cert.KernelIdeal.nD Cert.KernelIdeal.τ Cert.KernelIdeal.sig) → Buf (Elt Ideal) ℓ)

/-- The common result: the specification of the reference's stages of the kernel's arguments. -/
def result (c : Dev Cert.KernelIdeal.nD) : Cert.KernelIdeal.S4096x128.Idx → EReal :=
  Cert.Attn.attnSpec (m ((c.tc : Thread Cert.KernelIdeal.nD Cert.KernelIdeal.τ).loc Cert.KernelIdeal.main_arg0)) (Cert.ReferenceIdeal.Read.val_main_v0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (Cert.ReferenceIdeal.Read.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
    (Cert.ReferenceIdeal.Read.val_main_v11 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
    (m ((c.tc : Thread Cert.KernelIdeal.nD Cert.KernelIdeal.τ).loc Cert.KernelIdeal.main_arg10)) (fun h => ((m ((c.tc : Thread Cert.KernelIdeal.nD Cert.KernelIdeal.τ).loc Cert.KernelIdeal.main_arg11)) : Cert.KernelIdeal.S128.Idx → EReal) (ix1 h)) (m ((c.tc : Thread Cert.KernelIdeal.nD Cert.KernelIdeal.τ).loc Cert.KernelIdeal.main_arg12)) (fun h => ((m ((c.tc : Thread Cert.KernelIdeal.nD Cert.KernelIdeal.τ).loc Cert.KernelIdeal.main_arg13)) : Cert.KernelIdeal.S128.Idx → EReal) (ix1 h))

/-- Under the precondition the kernel's result array is the common result. -/
theorem kernel_result [hP : Cert.Pre_finite_inputs.Facts] (hpre : Cert.Pre_KernelIdeal m) (c : Dev Cert.KernelIdeal.nD) :
    ((Cert.KernelIdeal.Gen.dats m 0 c).arrAt 9 Cert.KernelIdeal.cfg0.N : Vec Ideal Cert.KernelIdeal.S4096x128 .f32) = result m c := by
  obtain ⟨r0, r1, r2, r3, r4, r5, r6, r7, r8, r9⟩ := Cert.PreReal.real_of_fn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  have hS : ∀ R j : Fin 4096, ∃ x : ℝ, Cert.Attn.score (karr m c) (qarr m c) (barr m c) R j = (x : EReal) := by
    intro R j
    have h := Cert.ReferenceIdeal.RefReal.score_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) r0 r1 r2 r3 r6 r7 r8 r9 R j
    rw [← Cert.HostVals.V_keys m c, ← Cert.HostVals.V_queries m c, ← Cert.HostVals.V_bias m c] at h
    exact h
  have hV : ∀ i : Cert.KernelIdeal.S4096x128.Idx, ∃ x : ℝ, varr m c i = (x : EReal) := by
    intro i
    have h := Cert.ReferenceIdeal.RefReal.value_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) r0 r4 r5 i
    rw [← Cert.HostVals.V_values m c] at h
    exact h
  rw [Cert.KernelIdeal.Inv.kernel_value m c hS hV]
  have e0 : xarr m c = (m ((c.tc : Thread Cert.KernelIdeal.nD Cert.KernelIdeal.τ).loc Cert.KernelIdeal.main_arg0)) := Cert.KernelIdeal.Gen.V_main_arg0 m c
  have e10 : w1arr m c = (m ((c.tc : Thread Cert.KernelIdeal.nD Cert.KernelIdeal.τ).loc Cert.KernelIdeal.main_arg10)) := Cert.KernelIdeal.Gen.V_main_arg10 m c
  have e12 : w2arr m c = (m ((c.tc : Thread Cert.KernelIdeal.nD Cert.KernelIdeal.τ).loc Cert.KernelIdeal.main_arg12)) := Cert.KernelIdeal.Gen.V_main_arg12 m c
  have ek : karr m c = Cert.ReferenceIdeal.Read.val_main_v0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := Cert.HostVals.V_keys m c
  have eq : qarr m c = Cert.ReferenceIdeal.Read.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := Cert.HostVals.V_queries m c
  have eb : barr m c = Cert.ReferenceIdeal.Read.val_main_v11 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := Cert.HostVals.V_bias m c
  have ev : varr m c = Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := Cert.HostVals.V_values m c
  have eb1 : (fun h : Fin 128 => b1arr m c (ix2 (0 : Fin 1) h)) = fun h => ((m ((c.tc : Thread Cert.KernelIdeal.nD Cert.KernelIdeal.τ).loc Cert.KernelIdeal.main_arg11)) : Cert.KernelIdeal.S128.Idx → EReal) (ix1 h) :=
    funext fun h => Cert.HostVals.V_b1 m c h
  have eb2 : (fun h : Fin 128 => b2arr m c (ix2 (0 : Fin 1) h)) = fun h => ((m ((c.tc : Thread Cert.KernelIdeal.nD Cert.KernelIdeal.τ).loc Cert.KernelIdeal.main_arg13)) : Cert.KernelIdeal.S128.Idx → EReal) (ix1 h) :=
    funext fun h => Cert.HostVals.V_b2 m c h
  rw [e0, e10, e12, ek, eq, eb, ev, eb1, eb2]
  rfl

/-- From arguments that agree with the kernel's the reference's result is the common result. -/
theorem reference_result (m' : (ℓ : Loc Cert.ReferenceIdeal.nD Cert.ReferenceIdeal.τ Cert.ReferenceIdeal.sig) → Buf (Elt Ideal) ℓ)
    (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    (Cert.ReferenceIdeal.Value.res_main_v44 m' c : Cert.KernelIdeal.S4096x128.Idx → EReal) = result m c := by
  obtain ⟨a0, a1, a2, a3, a4, a5, a6, a7, a8, a9, a10, a11, a12, a13⟩ := hagree
  rw [Cert.ReferenceIdeal.Read.val_main_v44_eq, Cert.ReferenceIdeal.RefValue.ref_is_spec,
    a0, a1, a2, a3, a4, a5, a6, a7, a8, a9, a10, a11, a12, a13]
  rfl

end Cert.Bridge

end
-- ==== Proof.lean ====
/-
  Single-head attention with an additive per-edge bias, a residual and a two-layer perceptron: a kernel that streams
  the columns block by block (online softmax) against the whole-row softmax of the reference, over the extended reals.

  The kernel runs a 4 x 4 grid: row block `qi` against column block `ki`.  Per row it carries the running maximum
  `m`, the denominator `l = ∑ exp (s - m)` and the numerator `acc = ∑ exp (s - m) v` over the columns seen so far;
  a new block rescales both sums by `exp (m_old - m_new)`, which is exact because `exp a * exp b = exp (a + b)` on the
  reals.  With finite inputs every score is a real number, the first block's rescaling factor is `exp (-∞) = 0` against
  zeroed sums, and after the fourth block `acc / l` is the softmax-weighted mean of the value rows, the denominator
  being positive.  The scale `0.125` is exactly `1 / √64`.  The residual perceptron and the per-edge bias are the same
  sums on both sides (the kernel's host program only flattens the edge array first).

  Modules: the specification (Spec), the online-softmax algebra of one row (OnlineSoftmax), the body's arithmetic at
  an index (Payloads), what each case of the body leaves (Pieces), blocks as restrictions of arrays and the output
  array from its blocks (Blocks), the induction over the grid (Invariant), the kernel's host arrays as the reference's
  stages (HostVals), the reference as the specification (RefValue), reals from the precondition (PreReal, RefReal),
  and both sides as one function of the arguments (Bridge).
-/
import proofs.«407300_j9534827397806_3_alg».proof.Defs
import proofs.«407300_j9534827397806_3_alg».proof.Proof.Gen.Kernel
import proofs.«407300_j9534827397806_3_alg».proof.Proof.Gen.Kernel.Skeleton
import proofs.«407300_j9534827397806_3_alg».proof.Proof.Gen.Kernel.Launch
import proofs.«407300_j9534827397806_3_alg».proof.Proof.Gen.Kernel.Points
import proofs.«407300_j9534827397806_3_alg».proof.Proof.Gen.Kernel.Frame
import proofs.«407300_j9534827397806_3_alg».proof.Proof.Gen.KernelIdeal
import proofs.«407300_j9534827397806_3_alg».proof.Proof.Gen.KernelIdeal.Skeleton
import proofs.«407300_j9534827397806_3_alg».proof.Proof.Gen.KernelIdeal.Launch
import proofs.«407300_j9534827397806_3_alg».proof.Proof.Gen.KernelIdeal.Points
import proofs.«407300_j9534827397806_3_alg».proof.Proof.Gen.KernelIdeal.Frame
import proofs.«407300_j9534827397806_3_alg».proof.Proof.Gen.ReferenceIdeal
import proofs.«407300_j9534827397806_3_alg».proof.Proof.Gen.Pre_finite_inputs
import proofs.«407300_j9534827397806_3_alg».proof.Proof.Gen.KernelIdeal.Value
import proofs.«407300_j9534827397806_3_alg».proof.Proof.Gen.ReferenceIdeal.Run
import proofs.«407300_j9534827397806_3_alg».proof.Proof.Gen.ReferenceIdeal.Read
import proofs.«407300_j9534827397806_3_alg».proof.Proof.Bridge
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the same result array: the specification of the reference's stages of the arguments. -/
theorem algebraic : Cert.algebraic_KernelIdeal_ReferenceIdeal := by
  intro m ρ m' ρ' hpre hagree
  refine ⟨fun c => Cert.Bridge.result m c, ?_, ?_⟩
  · exact (θ_run Cert.KernelIdeal.defs _ _).mono
      (fun r h c => ⟨(h c).1.trans (Cert.Bridge.kernel_result m hpre c), (h c).2⟩)
      (Cert.KernelIdeal.Value.run_blocks (F := Ideal) m ρ)
  · exact (θ_run Cert.ReferenceIdeal.defs _ _).mono
      (fun r h c => ⟨(h c).1.trans (Cert.Bridge.reference_result m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
